-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x160x160x160 : Shape := ⟨5, ![2, 4, 160, 160, 160]⟩
abbrev S2x160x160x160 : Shape := ⟨4, ![2, 160, 160, 160]⟩
abbrev S_ : Shape := ⟨0, ![]⟩

class Facts : Prop where
  bcast_S_S2x4x160x160x160 : S_.BroadcastsInDim S2x4x160x160x160 (![] : Fin 0 → Fin S2x4x160x160x160.rank)
  reducesTo_S2x4x160x160x160_S_d0_1_2_3_4 : S2x4x160x160x160.ReducesTo [0, 1, 2, 3, 4] S_
  h_S_ : 0 < S_.numel

variable [Facts]

def fn {F : FTy → Type} [FloatOps F] (main_arg0 : FVec F S2x4x160x160x160 .f32) (main_arg1 : IVec S2x160x160x160 32) (main_arg2 : IVec S2x4x160x160x160 32) : IVec S_ 1 :=
  let main_v0 : FVec F S2x4x160x160x160 .f32 := Host.absf main_arg0
  let main_cst : FVec F S_ .f32 := constant S_ .f32 0x7F800000#32
  let main_v1 : FVec F S2x4x160x160x160 .f32 := broadcastInDim S2x4x160x160x160 ![] bcast_S_S2x4x160x160x160 main_cst
  let main_v2 : IVec S2x4x160x160x160 1 := cmpf .olt main_v0 main_v1
  let main_c : IVec S_ 1 := constantI S_ 1 1#1
  let main_v3 : IVec S_ 1 := (fun x v => Host.reduce IntOp.andi x v reducesTo_S2x4x160x160x160_S_d0_1_2_3_4 h_S_) main_v2 main_c
  let main_c_0 : IVec S_ 32 := constantI S_ 32 0#32
  let main_v4 : IVec S2x4x160x160x160 32 := broadcastInDim S2x4x160x160x160 ![] bcast_S_S2x4x160x160x160 main_c_0
  let main_v5 : IVec S2x4x160x160x160 1 := cmpi .sge main_arg2 main_v4
  let main_c_1 : IVec S_ 1 := constantI S_ 1 1#1
  let main_v6 : IVec S_ 1 := (fun x v => Host.reduce IntOp.andi x v reducesTo_S2x4x160x160x160_S_d0_1_2_3_4 h_S_) main_v5 main_c_1
  let main_v7 : IVec S_ 1 := andi main_v3 main_v6
  let main_c_2 : IVec S_ 32 := constantI S_ 32 65#32
  let main_v8 : IVec S2x4x160x160x160 32 := broadcastInDim S2x4x160x160x160 ![] bcast_S_S2x4x160x160x160 main_c_2
  let main_v9 : IVec S2x4x160x160x160 1 := cmpi .slt main_arg2 main_v8
  let main_c_3 : IVec S_ 1 := constantI S_ 1 1#1
  let main_v10 : IVec S_ 1 := (fun x v => Host.reduce IntOp.andi x v reducesTo_S2x4x160x160x160_S_d0_1_2_3_4 h_S_) main_v9 main_c_3
  let main_v11 : IVec S_ 1 := andi main_v7 main_v10
  main_v11
-- ==== Kernel.lean ====
abbrev S2x4x160x160x160 : Shape := ⟨5, ![2, 4, 160, 160, 160]⟩
abbrev S2x160x160x160 : Shape := ⟨4, ![2, 160, 160, 160]⟩
abbrev S8x32000x128 : Shape := ⟨3, ![8, 32000, 128]⟩
abbrev S8x1x128 : Shape := ⟨3, ![8, 1, 128]⟩
abbrev S1x2000x128 : Shape := ⟨3, ![1, 2000, 128]⟩
abbrev S1x1x128 : Shape := ⟨3, ![1, 1, 128]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S8x128 : Shape := ⟨2, ![8, 128]⟩
abbrev S8x65 : Shape := ⟨2, ![8, 65]⟩
abbrev S2x4x65 : Shape := ⟨3, ![2, 4, 65]⟩
abbrev S_ : Shape := ⟨0, ![]⟩
abbrev S65 : Shape := ⟨1, ![65]⟩
abbrev S4 : Shape := ⟨1, ![4]⟩
abbrev S1x1x65 : Shape := ⟨3, ![1, 1, 65]⟩
abbrev S1x4x1 : Shape := ⟨3, ![1, 4, 1]⟩
abbrev S2 : Shape := ⟨1, ![2]⟩

abbrev nBuf : Space → Nat
  | .hbm => 65
  | .vmem => 8
  | .smem => 0
  | _ => 0

abbrev bufTy : (tb : Table) → Fin (tcTables nBuf tb) → BufTy
  | .hbm, ⟨0, _⟩ => ⟨S2x4x160x160x160, .f32⟩
  | .hbm, ⟨1, _⟩ => ⟨S2x160x160x160, .i32⟩
  | .hbm, ⟨2, _⟩ => ⟨S2x4x160x160x160, .i32⟩
  | .hbm, ⟨3, _⟩ => ⟨S8x32000x128, .f32⟩
  | .hbm, ⟨4, _⟩ => ⟨S8x32000x128, .i32⟩
  | .hbm, ⟨5, _⟩ => ⟨S8x1x128, .f32⟩
  | .hbm, ⟨6, _⟩ => ⟨S8x1x128, .f32⟩
  | .hbm, ⟨7, _⟩ => ⟨S8x128, .f32⟩
  | .hbm, ⟨8, _⟩ => ⟨S8x65, .f32⟩
  | .hbm, ⟨9, _⟩ => ⟨S2x4x65, .f32⟩
  | .hbm, ⟨10, _⟩ => ⟨S8x128, .f32⟩
  | .hbm, ⟨11, _⟩ => ⟨S8x65, .f32⟩
  | .hbm, ⟨12, _⟩ => ⟨S2x4x65, .f32⟩
  | .hbm, ⟨13, _⟩ => ⟨S_, .f32⟩
  | .hbm, ⟨14, _⟩ => ⟨S2x4x65, .f32⟩
  | .hbm, ⟨15, _⟩ => ⟨S2x4x65, .f32⟩
  | .hbm, ⟨16, _⟩ => ⟨S_, .f32⟩
  | .hbm, ⟨17, _⟩ => ⟨S2x4x65, .f32⟩
  | .hbm, ⟨18, _⟩ => ⟨S2x4x65, .f32⟩
  | .hbm, ⟨19, _⟩ => ⟨S2x4x65, .f32⟩
  | .hbm, ⟨20, _⟩ => ⟨S_, .f32⟩
  | .hbm, ⟨21, _⟩ => ⟨S2x4x65, .f32⟩
  | .hbm, ⟨22, _⟩ => ⟨S2x4x65, .f32⟩
  | .hbm, ⟨23, _⟩ => ⟨S2x4x65, .f32⟩
  | .hbm, ⟨24, _⟩ => ⟨S65, .i32⟩
  | .hbm, ⟨25, _⟩ => ⟨S4, .i32⟩
  | .hbm, ⟨26, _⟩ => ⟨S_, .f32⟩
  | .hbm, ⟨27, _⟩ => ⟨S2x4x65, .f32⟩
  | .hbm, ⟨28, _⟩ => ⟨S2x4x65, .i1⟩
  | .hbm, ⟨29, _⟩ => ⟨S1x1x65, .i32⟩
  | .hbm, ⟨30, _⟩ => ⟨S_, .i32⟩
  | .hbm, ⟨31, _⟩ => ⟨S1x1x65, .i32⟩
  | .hbm, ⟨32, _⟩ => ⟨S1x1x65, .i1⟩
  | .hbm, ⟨33, _⟩ => ⟨S2x4x65, .i1⟩
  | .hbm, ⟨34, _⟩ => ⟨S2x4x65, .i1⟩
  | .hbm, ⟨35, _⟩ => ⟨S1x4x1, .i32⟩
  | .hbm, ⟨36, _⟩ => ⟨S_, .i32⟩
  | .hbm, ⟨37, _⟩ => ⟨S1x4x1, .i32⟩
  | .hbm, ⟨38, _⟩ => ⟨S1x4x1, .i1⟩
  | .hbm, ⟨39, _⟩ => ⟨S2x4x65, .i1⟩
  | .hbm, ⟨40, _⟩ => ⟨S2x4x65, .i1⟩
  | .hbm, ⟨41, _⟩ => ⟨S2x4x65, .i32⟩
  | .hbm, ⟨42, _⟩ => ⟨S_, .i32⟩
  | .hbm, ⟨43, _⟩ => ⟨S2, .i32⟩
  | .hbm, ⟨44, _⟩ => ⟨S2x4x65, .f32⟩
  | .hbm, ⟨45, _⟩ => ⟨S2x4x65, .f32⟩
  | .hbm, ⟨46, _⟩ => ⟨S_, .f32⟩
  | .hbm, ⟨47, _⟩ => ⟨S2, .f32⟩
  | .hbm, ⟨48, _⟩ => ⟨S_, .i32⟩
  | .hbm, ⟨49, _⟩ => ⟨S2, .i32⟩
  | .hbm, ⟨50, _⟩ => ⟨S2, .i32⟩
  | .hbm, ⟨51, _⟩ => ⟨S2, .f32⟩
  | .hbm, ⟨52, _⟩ => ⟨S2, .f32⟩
  | .hbm, ⟨53, _⟩ => ⟨S_, .i32⟩
  | .hbm, ⟨54, _⟩ => ⟨S2, .i32⟩
  | .hbm, ⟨55, _⟩ => ⟨S2, .i1⟩
  | .hbm, ⟨56, _⟩ => ⟨S2, .f32⟩
  | .hbm, ⟨57, _⟩ => ⟨S_, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S1x2000x128, .f32⟩
  | .local _ .vmem, ⟨1, _⟩ => ⟨S1x2000x128, .f32⟩
  | .local _ .vmem, ⟨2, _⟩ => ⟨S1x2000x128, .i32⟩
  | .local _ .vmem, ⟨3, _⟩ => ⟨S1x2000x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S2x4x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x4x160x160x160_S8x32000x128 : S2x4x160x160x160.ShapeCasts S8x32000x128
  inb_S1x1x128_S1x1x128_0_0_0 : ∀ a, (![0, 0, 0] : Fin 3 → Nat) a + S1x1x128.size a ≤ S1x1x128.size a
  h_S1x1x128 : 0 < S1x1x128.numel
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  iota_S1x128_d1_w32 : S1x128.Iotas .tc 32 [1]
  reduces_S2000x128_S2000 : S2000x128.Reduces [1] S2000
  shapeCasts_S2000_S2000x1 : S2000.ShapeCasts S2000x1
  reduces_S2000x1_S1 : S2000x1.Reduces [0] S1
  shapeCasts_S1_S1x1 : S1.ShapeCasts S1x1
  natLt_1_32 : 1 < 32
  shapeCasts_S1x1x128_S1x128 : S1x1x128.ShapeCasts S1x128
  broadcasts_S1x1_S1x128 : S1x1.Broadcasts S1x128
  shapeCasts_S1x128_S1x1x128 : S1x128.ShapeCasts S1x1x128
  shapeCasts_S8x1x128_S8x128 : S8x1x128.ShapeCasts S8x128
  slices_S8x128_S8x65_0_0 : S8x128.Slices ![0, 0] S8x65
  shapeCasts_S8x65_S2x4x65 : S8x65.ShapeCasts S2x4x65
  bcast_S_S2x4x65 : S_.BroadcastsInDim S2x4x65 (![] : Fin 0 → Fin S2x4x65.rank)
  bcast_S65_S1x1x65_2 : S65.BroadcastsInDim S1x1x65 (![2] : Fin 1 → Fin S1x1x65.rank)
  bcast_S_S1x1x65 : S_.BroadcastsInDim S1x1x65 (![] : Fin 0 → Fin S1x1x65.rank)
  bcast_S1x1x65_S2x4x65_0_1_2 : S1x1x65.BroadcastsInDim S2x4x65 (![0, 1, 2] : Fin 3 → Fin S2x4x65.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S1x4x1_S2x4x65_0_1_2 : S1x4x1.BroadcastsInDim S2x4x65 (![0, 1, 2] : Fin 3 → Fin S2x4x65.rank)
  reducesTo_S2x4x65_S2_d1_2 : S2x4x65.ReducesTo [1, 2] S2
  h_S_ : 0 < S_.numel
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S8x32000x128.size a
  hwx0_0 : ∀ i : grid0.Coords, EltTy.bits .f32 = 32 ∨ (Rect.block (s := S8x32000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x128.size a ≤ S8x32000x128.size a
  hwx0_1 : ∀ i : grid0.Coords, EltTy.bits .i32 = 32 ∨ (Rect.block (s := S8x32000x128) S1x2000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_v0) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4x160x160x160 : Shape := ⟨5, ![2, 4, 160, 160, 160]⟩
abbrev S2x160x160x160 : Shape := ⟨4, ![2, 160, 160, 160]⟩
abbrev S8x4096000 : Shape := ⟨2, ![8, 4096000]⟩
abbrev S8 : Shape := ⟨1, ![8]⟩
abbrev S8x1 : Shape := ⟨2, ![8, 1]⟩
abbrev S_ : Shape := ⟨0, ![]⟩
abbrev S32768000 : Shape := ⟨1, ![32768000]⟩
abbrev S520 : Shape := ⟨1, ![520]⟩
abbrev S32768000x1 : Shape := ⟨2, ![32768000, 1]⟩
abbrev S2x4x65 : Shape := ⟨3, ![2, 4, 65]⟩
abbrev S65 : Shape := ⟨1, ![65]⟩
abbrev S1x1x65 : Shape := ⟨3, ![1, 1, 65]⟩
abbrev S4 : Shape := ⟨1, ![4]⟩
abbrev S1x4x1 : Shape := ⟨3, ![1, 4, 1]⟩
abbrev S2 : Shape := ⟨1, ![2]⟩

abbrev nBuf : Space → Nat
  | .hbm => 78
  | .vmem => 0
  | .smem => 0
  | _ => 0

abbrev bufTy : (tb : Table) → Fin (tcTables nBuf tb) → BufTy
  | .hbm, ⟨0, _⟩ => ⟨S2x4x160x160x160, .f32⟩
  | .hbm, ⟨1, _⟩ => ⟨S2x160x160x160, .i32⟩
  | .hbm, ⟨2, _⟩ => ⟨S2x4x160x160x160, .i32⟩
  | .hbm, ⟨3, _⟩ => ⟨S8x4096000, .i32⟩
  | .hbm, ⟨4, _⟩ => ⟨S8, .i32⟩
  | .hbm, ⟨5, _⟩ => ⟨S8x1, .i32⟩
  | .hbm, ⟨6, _⟩ => ⟨S_, .i32⟩
  | .hbm, ⟨7, _⟩ => ⟨S8x1, .i32⟩
  | .hbm, ⟨8, _⟩ => ⟨S8x1, .i32⟩
  | .hbm, ⟨9, _⟩ => ⟨S8x4096000, .i32⟩
  | .hbm, ⟨10, _⟩ => ⟨S8x4096000, .i32⟩
  | .hbm, ⟨11, _⟩ => ⟨S32768000, .i32⟩
  | .hbm, ⟨12, _⟩ => ⟨S32768000, .f32⟩
  | .hbm, ⟨13, _⟩ => ⟨S_, .f32⟩
  | .hbm, ⟨14, _⟩ => ⟨S520, .f32⟩
  | .hbm, ⟨15, _⟩ => ⟨S32768000x1, .i32⟩
  | .hbm, ⟨16, _⟩ => ⟨S520, .f32⟩
  | .hbm, ⟨17, _⟩ => ⟨S_, .f32⟩
  | .hbm, ⟨18, _⟩ => ⟨S2x4x160x160x160, .f32⟩
  | .hbm, ⟨19, _⟩ => ⟨S32768000, .f32⟩
  | .hbm, ⟨20, _⟩ => ⟨S_, .f32⟩
  | .hbm, ⟨21, _⟩ => ⟨S520, .f32⟩
  | .hbm, ⟨22, _⟩ => ⟨S32768000x1, .i32⟩
  | .hbm, ⟨23, _⟩ => ⟨S520, .f32⟩
  | .hbm, ⟨24, _⟩ => ⟨S2x4x65, .f32⟩
  | .hbm, ⟨25, _⟩ => ⟨S2x4x65, .f32⟩
  | .hbm, ⟨26, _⟩ => ⟨S_, .f32⟩
  | .hbm, ⟨27, _⟩ => ⟨S2x4x65, .f32⟩
  | .hbm, ⟨28, _⟩ => ⟨S2x4x65, .f32⟩
  | .hbm, ⟨29, _⟩ => ⟨S_, .f32⟩
  | .hbm, ⟨30, _⟩ => ⟨S2x4x65, .f32⟩
  | .hbm, ⟨31, _⟩ => ⟨S2x4x65, .f32⟩
  | .hbm, ⟨32, _⟩ => ⟨S2x4x65, .f32⟩
  | .hbm, ⟨33, _⟩ => ⟨S_, .f32⟩
  | .hbm, ⟨34, _⟩ => ⟨S2x4x65, .f32⟩
  | .hbm, ⟨35, _⟩ => ⟨S2x4x65, .f32⟩
  | .hbm, ⟨36, _⟩ => ⟨S2x4x65, .f32⟩
  | .hbm, ⟨37, _⟩ => ⟨S_, .f32⟩
  | .hbm, ⟨38, _⟩ => ⟨S2x4x65, .f32⟩
  | .hbm, ⟨39, _⟩ => ⟨S2x4x65, .i1⟩
  | .hbm, ⟨40, _⟩ => ⟨S65, .i32⟩
  | .hbm, ⟨41, _⟩ => ⟨S1x1x65, .i32⟩
  | .hbm, ⟨42, _⟩ => ⟨S_, .i32⟩
  | .hbm, ⟨43, _⟩ => ⟨S1x1x65, .i32⟩
  | .hbm, ⟨44, _⟩ => ⟨S1x1x65, .i1⟩
  | .hbm, ⟨45, _⟩ => ⟨S2x4x65, .i1⟩
  | .hbm, ⟨46, _⟩ => ⟨S2x4x65, .i1⟩
  | .hbm, ⟨47, _⟩ => ⟨S4, .i32⟩
  | .hbm, ⟨48, _⟩ => ⟨S1x4x1, .i32⟩
  | .hbm, ⟨49, _⟩ => ⟨S_, .i32⟩
  | .hbm, ⟨50, _⟩ => ⟨S1x4x1, .i32⟩
  | .hbm, ⟨51, _⟩ => ⟨S1x4x1, .i1⟩
  | .hbm, ⟨52, _⟩ => ⟨S2x4x65, .i1⟩
  | .hbm, ⟨53, _⟩ => ⟨S2x4x65, .i1⟩
  | .hbm, ⟨54, _⟩ => ⟨S2x4x65, .i32⟩
  | .hbm, ⟨55, _⟩ => ⟨S_, .i32⟩
  | .hbm, ⟨56, _⟩ => ⟨S2, .i32⟩
  | .hbm, ⟨57, _⟩ => ⟨S2x4x65, .f32⟩
  | .hbm, ⟨58, _⟩ => ⟨S2x4x65, .f32⟩
  | .hbm, ⟨59, _⟩ => ⟨S_, .f32⟩
  | .hbm, ⟨60, _⟩ => ⟨S2, .f32⟩
  | .hbm, ⟨61, _⟩ => ⟨S_, .i32⟩
  | .hbm, ⟨62, _⟩ => ⟨S2, .i32⟩
  | .hbm, ⟨63, _⟩ => ⟨S2, .i32⟩
  | .hbm, ⟨64, _⟩ => ⟨S2, .f32⟩
  | .hbm, ⟨65, _⟩ => ⟨S2, .f32⟩
  | .hbm, ⟨66, _⟩ => ⟨S_, .i32⟩
  | .hbm, ⟨67, _⟩ => ⟨S2, .i32⟩
  | .hbm, ⟨68, _⟩ => ⟨S2, .i1⟩
  | .hbm, ⟨69, _⟩ => ⟨S2, .f32⟩
  | .hbm, ⟨70, _⟩ => ⟨S_, .f32⟩
  | .hbm, ⟨71, _⟩ => ⟨S_, .f32⟩
  | .hbm, ⟨72, _⟩ => ⟨S2, .f32⟩
  | .hbm, ⟨73, _⟩ => ⟨S2, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S2x4x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_call0_v0 : Ref sig .tc := ⟨.hbm, 71, rfl⟩
abbrev main_call0_v1 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  shapeCasts_S2x4x160x160x160_S8x4096000 : S2x4x160x160x160.ShapeCasts S8x4096000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096000_0_1 : S8x1.BroadcastsInDim S8x4096000 (![0, 1] : Fin 2 → Fin S8x4096000.rank)
  shapeCasts_S8x4096000_S32768000 : S8x4096000.ShapeCasts S32768000
  shapeCasts_S2x4x160x160x160_S32768000 : S2x4x160x160x160.ShapeCasts S32768000
  bcast_S_S520 : S_.BroadcastsInDim S520 (![] : Fin 0 → Fin S520.rank)
  bcast_S32768000_S32768000x1_0 : S32768000.BroadcastsInDim S32768000x1 (![0] : Fin 1 → Fin S32768000x1.rank)
  bcast_S_S2x4x160x160x160 : S_.BroadcastsInDim S2x4x160x160x160 (![] : Fin 0 → Fin S2x4x160x160x160.rank)
  shapeCasts_S520_S2x4x65 : S520.ShapeCasts S2x4x65
  bcast_S_S2x4x65 : S_.BroadcastsInDim S2x4x65 (![] : Fin 0 → Fin S2x4x65.rank)
  bcast_S65_S1x1x65_2 : S65.BroadcastsInDim S1x1x65 (![2] : Fin 1 → Fin S1x1x65.rank)
  bcast_S_S1x1x65 : S_.BroadcastsInDim S1x1x65 (![] : Fin 0 → Fin S1x1x65.rank)
  bcast_S1x1x65_S2x4x65_0_1_2 : S1x1x65.BroadcastsInDim S2x4x65 (![0, 1, 2] : Fin 3 → Fin S2x4x65.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S1x4x1_S2x4x65_0_1_2 : S1x4x1.BroadcastsInDim S2x4x65 (![0, 1, 2] : Fin 3 → Fin S2x4x65.rank)
  natLt_1_32 : 1 < 32
  reducesTo_S2x4x65_S2_d1_2 : S2x4x65.ReducesTo [1, 2] S2
  h_S_ : 0 < S_.numel
  bcast_S_S2 : S_.BroadcastsInDim S2 (![] : Fin 0 → Fin S2.rank)
  reducesTo_S2_S_d0 : S2.ReducesTo [0] S_
  scatter_S520_S32768000x1_S32768000_n_0_0_1_wf : ScatterDims.WF S520 S32768000x1 S32768000 [] [0] [0] 1

variable [Facts₀]

def scatter_S520_S32768000x1_S32768000_n_0_0_1 : ScatterDims S520 S32768000x1 S32768000 where
  updateWindowDims := []
  insertedWindowDims := [0]
  scatterDimsToOperandDims := [0]
  indexVectorDim := 1
  wf := scatter_S520_S32768000x1_S32768000_n_0_0_1_wf

class Facts : Prop extends Facts₀ where

variable [Facts]
-- ==== Proof.Bins.lean ====
/-
  The two programs' bin arrays, the host steps around them, and the dice tail both programs end with.

  Both programs compute, for each of the 8 (batch, class) pairs and each bin `k < 65`, the sum of the values whose
  label is `k` and the number of such values, as two [2, 4, 65] arrays, and then apply the SAME chain of host
  operations to that pair of arrays (`tail`): the per-blob dice, the mask of valid blobs, the per-sample mean over
  valid blobs, the sign, and the mean over the two samples.

  The kernel's program reaches the arrays through [8, 1, 128] blocks whose lane `l` holds bin `l` (`kSum`, `kCnt`,
  then a reshape, the slice of the first 65 lanes, a reshape). The reference's reaches them by a scatter-add into 520
  segments, the segment of a value being 65 · (its pair's number) + its label (`segIds`, `rBins`).
-/
import Idealize.ShloMosaic.PureOps
import Idealize.ShloMosaic.PureOps.Ideal
import Idealize.ShloMosaic.PureOps.ShapeOps
import Idealize.ShloMosaic.Lib.ValueIdx

noncomputable section

namespace Cert.Hist

open Idealize.ShloMosaic Idealize.ShloMosaic.ValueIdx

abbrev S5 : Shape := ⟨5, ![2, 4, 160, 160, 160]⟩
abbrev S3 : Shape := ⟨3, ![8, 32000, 128]⟩
abbrev SO3 : Shape := ⟨3, ![8, 1, 128]⟩
abbrev S8x128 : Shape := ⟨2, ![8, 128]⟩
abbrev S8x65 : Shape := ⟨2, ![8, 65]⟩
abbrev SBins : Shape := ⟨3, ![2, 4, 65]⟩
abbrev S520 : Shape := ⟨1, ![520]⟩
abbrev SFlat : Shape := ⟨1, ![32768000]⟩
abbrev SFlat1 : Shape := ⟨2, ![32768000, 1]⟩
abbrev S8xM : Shape := ⟨2, ![8, 4096000]⟩
abbrev S8v : Shape := ⟨1, ![8]⟩
abbrev S8x1 : Shape := ⟨2, ![8, 1]⟩
abbrev S0 : Shape := ⟨0, ![]⟩
abbrev SK : Shape := ⟨3, ![1, 1, 65]⟩
abbrev SC : Shape := ⟨3, ![1, 4, 1]⟩
abbrev S65v : Shape := ⟨1, ![65]⟩
abbrev S4v : Shape := ⟨1, ![4]⟩
abbrev S2v : Shape := ⟨1, ![2]⟩

/-! ## The kernel's side -/

/-- Row `r` of tile `t` among the 32000 rows of a (batch, class) pair. -/
def rowOf (t : Fin 16) (r : Fin 2000) : Fin 32000 := ⟨2000 * t.val + r.val, by omega⟩

/-- Bin `l` of pair `bc`, the sum: over the pair's 16 tiles, the values labelled `l`; zero in the lanes past the bins. -/
def kSum (x3 : S3.Idx → EReal) (l3 : IVec S3 32) (bc : Fin 8) (l : Fin 128) : EReal :=
  if l.val < 65 then ∑ t : Fin 16, ∑ r : Fin 2000, ∑ q : Fin 128,
    (if l3 (ix3 bc (rowOf t r) q) = BitVec.ofNat 32 l.val then x3 (ix3 bc (rowOf t r) q) else 0) else 0

/-- Bin `l` of pair `bc`, the count. -/
def kCnt (l3 : IVec S3 32) (bc : Fin 8) (l : Fin 128) : EReal :=
  if l.val < 65 then ∑ t : Fin 16, ∑ r : Fin 2000, ∑ q : Fin 128,
    (if l3 (ix3 bc (rowOf t r) q) = BitVec.ofNat 32 l.val then (1 : EReal) else 0) else 0

/-- The two [8, 1, 128] arrays the kernel region writes. -/
def kSumArr (x3 : S3.Idx → EReal) (l3 : IVec S3 32) : SO3.Idx → EReal := fun j => kSum x3 l3 (j 0) (j 2)
def kCntArr (l3 : IVec S3 32) : SO3.Idx → EReal := fun j => kCnt l3 (j 0) (j 2)

/-- The shape relations of the kernel program's host steps around the region. -/
structure KGlueFacts : Prop where
  c5 : S5.ShapeCasts S3
  c8 : SO3.ShapeCasts S8x128
  sl : S8x128.Slices ![0, 0] S8x65
  c65 : S8x65.ShapeCasts SBins

/-- From an [8, 1, 128] array to the [2, 4, 65] bins: drop the unit axis, keep the first 65 lanes, split the pairs. -/
def kBins {α : Type} (hk : KGlueFacts) (arr : SO3.Idx → α) : SBins.Idx → α :=
  shapeCast SBins (extractStridedSlice S8x65 ![0, 0] (shapeCast S8x128 arr hk.c8) hk.sl) hk.c65

/-! ## The reference's side -/

/-- The shape relations of the reference's segment sums. -/
structure RFacts : Prop where
  c5m : S5.ShapeCasts S8xM
  b8 : S8v.BroadcastsInDim S8x1 (![0] : Fin 1 → Fin S8x1.rank)
  b0 : S0.BroadcastsInDim S8x1 (![] : Fin 0 → Fin S8x1.rank)
  b81 : S8x1.BroadcastsInDim S8xM (![0, 1] : Fin 2 → Fin S8xM.rank)
  cmf : S8xM.ShapeCasts SFlat
  c5f : S5.ShapeCasts SFlat
  b520 : S0.BroadcastsInDim S520 (![] : Fin 0 → Fin S520.rank)
  bf1 : SFlat.BroadcastsInDim SFlat1 (![0] : Fin 1 → Fin SFlat1.rank)
  b5 : S0.BroadcastsInDim S5 (![] : Fin 0 → Fin S5.rank)
  c520 : S520.ShapeCasts SBins
  wf : ScatterDims.WF S520 SFlat1 SFlat [] [0] [0] 1

/-- The scatter's dimension numbers: operand [520], indices [E, 1], updates [E]. -/
def segDims (hr : RFacts) : ScatterDims S520 SFlat1 SFlat where
  updateWindowDims := []
  insertedWindowDims := [0]
  scatterDimsToOperandDims := [0]
  indexVectorDim := 1
  wf := hr.wf

/-- The segment of each value: 65 · (pair number) + label, in 32-bit words, as a column. -/
def segIds (hr : RFacts) (lab : IVec S5 32) : IVec SFlat1 32 :=
  broadcastInDim SFlat1 ![0] hr.bf1 (shapeCast SFlat (addi (broadcastInDim S8xM ![0, 1] hr.b81
    (muli (broadcastInDim S8x1 ![0] hr.b8 (iotaInDim S8v 32 0)) (broadcastInDim S8x1 ![] hr.b0 (constantI S0 32 65#32))))
    (shapeCast S8xM lab hr.c5m)) hr.cmf)

variable {F : FTy → Type} [FloatOps F]

/-- The segment sums of the flat updates `upd`, as [2, 4, 65] bins. -/
def rBins (hr : RFacts) (lab : IVec S5 32) (upd : FVec F SFlat .f32) : FVec F SBins .f32 :=
  shapeCast SBins (Host.scatterAdd (segDims hr) (broadcastInDim S520 ![] hr.b520 (constant (F := F) S0 .f32 0x00000000#32))
    (segIds hr lab) upd) hr.c520

/-- The all-ones updates the reference counts with. -/
def onesFlat (hr : RFacts) : FVec F SFlat .f32 :=
  shapeCast SFlat (broadcastInDim S5 ![] hr.b5 (constant (F := F) S0 .f32 0x3F800000#32)) hr.c5f

/-! ## The common index set

Both sides of a bin are sums over the same set of flat positions `e < 32768000` of the inputs: those of the bin's
(batch, class) pair, `e / 4096000 = bc`, whose label is the bin's number. -/

/-- An input array read at a flat (row-major) position. -/
def flatOf {α : Type} (hr : RFacts) (x : S5.Idx → α) (e : Fin 32768000) : α := shapeCast SFlat x hr.c5f (ix1 e)

/-- The flat positions of pair `bc` labelled `k`. -/
def binSet (hr : RFacts) (lab : IVec S5 32) (bc : Fin 8) (k : Fin 65) : Finset (Fin 32768000) :=
  Finset.univ.filter fun e => e.val / 4096000 = bc.val ∧ flatOf hr lab e = BitVec.ofNat 32 k.val

/-- Pair number of (batch, class). -/
def pairIx (b : Fin 2) (c : Fin 4) : Fin 8 := ⟨4 * b.val + c.val, by omega⟩

/-- Bin `k < 65` as a lane. -/
def laneIx (k : Fin 65) : Fin 128 := ⟨k.val, by omega⟩

/-! ## The shared tail -/

/-- The shape relations of the tail's operations. -/
structure TailFacts : Prop where
  b0 : S0.BroadcastsInDim SBins (![] : Fin 0 → Fin SBins.rank)
  bk : S65v.BroadcastsInDim SK (![2] : Fin 1 → Fin SK.rank)
  bk0 : S0.BroadcastsInDim SK (![] : Fin 0 → Fin SK.rank)
  bk3 : SK.BroadcastsInDim SBins (![0, 1, 2] : Fin 3 → Fin SBins.rank)
  bc : S4v.BroadcastsInDim SC (![1] : Fin 1 → Fin SC.rank)
  bc0 : S0.BroadcastsInDim SC (![] : Fin 0 → Fin SC.rank)
  bc3 : SC.BroadcastsInDim SBins (![0, 1, 2] : Fin 3 → Fin SBins.rank)
  lt : 1 < 32
  r12 : SBins.ReducesTo [1, 2] S2v
  h0 : 0 < S0.numel
  b2 : S0.BroadcastsInDim S2v (![] : Fin 0 → Fin S2v.rank)
  r0 : S2v.ReducesTo [0] S0

/-- From the bins' sums `s` and counts `n` to the loss: the dice `(2 s + ε) / (s + n + ε)` of each bin, kept where the
    bin is non-empty, is not bin 0 and is not of class 0; per sample the mean of the kept dice over `max(#kept, 1)`,
    negated where something was kept and zero otherwise; then the mean over the two samples. -/
def tail (ht : TailFacts) (s n : FVec F SBins .f32) : FVec F S0 .f32 :=
  Host.divf (F := F) (Host.reduceAdd (F := F) (select (cmpi .sgt (Host.reduce IntOp.addi (extui 32 (andi (andi (cmpf (F := F) .ogt n (broadcastInDim SBins ![] ht.b0 (constant (F := F) S0 .f32 0x00000000#32))) (broadcastInDim SBins ![0, 1, 2] ht.bk3 (cmpi .sge (broadcastInDim SK ![2] ht.bk (iotaInDim S65v 32 0)) (broadcastInDim SK ![] ht.bk0 (constantI S0 32 1#32))))) (broadcastInDim SBins ![0, 1, 2] ht.bc3 (cmpi .sge (broadcastInDim SC ![1] ht.bc (iotaInDim S4v 32 0)) (broadcastInDim SC ![] ht.bc0 (constantI S0 32 1#32))))) ht.lt) (constantI S0 32 0#32) ht.r12 ht.h0) (broadcastInDim S2v ![] ht.b2 (constantI S0 32 0#32))) (Host.negf (F := F) (Host.divf (F := F) (Host.reduceAdd (F := F) (mulf (Host.divf (F := F) (addf (mulf (broadcastInDim SBins ![] ht.b0 (constant (F := F) S0 .f32 0x40000000#32)) s) (broadcastInDim SBins ![] ht.b0 (constant (F := F) S0 .f32 0x358637BD#32))) (addf (addf s n) (broadcastInDim SBins ![] ht.b0 (constant (F := F) S0 .f32 0x358637BD#32)))) (uitofp (F := F) .f32 (andi (andi (cmpf (F := F) .ogt n (broadcastInDim SBins ![] ht.b0 (constant (F := F) S0 .f32 0x00000000#32))) (broadcastInDim SBins ![0, 1, 2] ht.bk3 (cmpi .sge (broadcastInDim SK ![2] ht.bk (iotaInDim S65v 32 0)) (broadcastInDim SK ![] ht.bk0 (constantI S0 32 1#32))))) (broadcastInDim SBins ![0, 1, 2] ht.bc3 (cmpi .sge (broadcastInDim SC ![1] ht.bc (iotaInDim S4v 32 0)) (broadcastInDim SC ![] ht.bc0 (constantI S0 32 1#32))))))) (constant (F := F) S0 .f32 0x00000000#32) ht.r12 ht.h0) (sitofp (F := F) .f32 (maxsi (Host.reduce IntOp.addi (extui 32 (andi (andi (cmpf (F := F) .ogt n (broadcastInDim SBins ![] ht.b0 (constant (F := F) S0 .f32 0x00000000#32))) (broadcastInDim SBins ![0, 1, 2] ht.bk3 (cmpi .sge (broadcastInDim SK ![2] ht.bk (iotaInDim S65v 32 0)) (broadcastInDim SK ![] ht.bk0 (constantI S0 32 1#32))))) (broadcastInDim SBins ![0, 1, 2] ht.bc3 (cmpi .sge (broadcastInDim SC ![1] ht.bc (iotaInDim S4v 32 0)) (broadcastInDim SC ![] ht.bc0 (constantI S0 32 1#32))))) ht.lt) (constantI S0 32 0#32) ht.r12 ht.h0) (broadcastInDim S2v ![] ht.b2 (constantI S0 32 1#32)))))) (broadcastInDim S2v ![] ht.b2 (id (constant (F := F) S0 .f32 0x00000000#32)))) (constant (F := F) S0 .f32 0x00000000#32) ht.r0 ht.h0) (constant (F := F) S0 .f32 0x40000000#32)

end Cert.Hist

end
-- ==== Proof.RefValue.lean ====
/-
  The reference's result, cut into its stages: the shared tail applied to the segment sums of the values and to the
  segment sums of ones, both keyed by 65 · (pair number) + label.
-/
import proofs.«419708_j2456721293567_1_alg».proof.Defs
import proofs.«419708_j2456721293567_1_alg».proof.Proof.Gen.ReferenceIdeal
import proofs.«419708_j2456721293567_1_alg».proof.Proof.RefRun
import proofs.«419708_j2456721293567_1_alg».proof.Proof.Bins

set_option maxRecDepth 16384

noncomputable section

open Idealize.ShloMosaic Idealize.ShloMosaic.TcCoe Idealize.SL.Sem

namespace Cert.ReferenceIdeal.RefValue

open Cert.ReferenceIdeal Cert.ReferenceIdeal.Gen Cert.Hist

/-- The reference's shape relations, as the segment sums and the tail take them. -/
theorem rf : RFacts :=
  ⟨shapeCasts_S2x4x160x160x160_S8x4096000, bcast_S8_S8x1_0, bcast_S_S8x1, bcast_S8x1_S8x4096000_0_1,
    shapeCasts_S8x4096000_S32768000, shapeCasts_S2x4x160x160x160_S32768000, bcast_S_S520, bcast_S32768000_S32768000x1_0,
    bcast_S_S2x4x160x160x160, shapeCasts_S520_S2x4x65, scatter_S520_S32768000x1_S32768000_n_0_0_1_wf⟩

theorem tfR : TailFacts :=
  ⟨bcast_S_S2x4x65, bcast_S65_S1x1x65_2, bcast_S_S1x1x65, bcast_S1x1x65_S2x4x65_0_1_2, bcast_S4_S1x4x1_1, bcast_S_S1x4x1,
    bcast_S1x4x1_S2x4x65_0_1_2, natLt_1_32, reducesTo_S2x4x65_S2_d1_2, h_S_, bcast_S_S2, reducesTo_S2_S_d0⟩

variable {F : FTy → Type} [FloatOps F]

/-- The run's result term is the tail of the two segment-sum arrays. -/
theorem res_eq (m : (ℓ : Loc nD τ sig) → Buf (Elt F) ℓ) (c : Dev nD) :
    Cert.ReferenceIdeal.Value.res_main_v55 m c
      = tail tfR
          (rBins rf (m ((c.tc : Thread nD τ).loc main_arg2)) (shapeCast SFlat (m ((c.tc : Thread nD τ).loc main_arg0)) rf.c5f))
          (rBins rf (m ((c.tc : Thread nD τ).loc main_arg2)) (onesFlat rf)) := by
  unfold Cert.ReferenceIdeal.Value.res_main_v55
  rfl

end Cert.ReferenceIdeal.RefValue

end
-- ==== Proof.Spec.lean ====
/-
  One tile of the histogram, as pure functions over the library only.

  A tile is a [2000, 128] block of values `x` and of integer labels `lab`. For a bin `k` the tile's contribution to the
  bin's sum is the sum over the whole tile of `x` where `lab = k` and of zero elsewhere, taken lanes first, then rows;
  its contribution to the bin's count is the same sum of the indicator of `lab = k`. The two running histograms are
  [1, 1, 128] blocks: bin `k` lives in lane `k`, and a contribution is added into its lane by multiplying it with the
  lane's indicator vector and adding the product to the block. Doing this for the bins `0, 1, …, n - 1` in turn is
  `accSum` / `accCnt`.

  Read over the extended reals (where every float operation is the exact one) the block after `n` bins holds, in lane
  `l`, what it held before plus the tile's contribution to bin `l` when `l < n`, and exactly what it held before in
  the other lanes: adding `t · 0` changes nothing and adding `t · 1` adds `t`, for every extended real `t`.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Hist

open Idealize.ShloMosaic Idealize.ShloMosaic.ValueIdx

/-- A tile, its row sums as a vector and as a column, the total as a vector and as a 1×1 block, a lane vector, and a
    histogram block. -/
abbrev SB : Shape := ⟨2, ![2000, 128]⟩
abbrev SRow : Shape := ⟨1, ![2000]⟩
abbrev SCol : Shape := ⟨2, ![2000, 1]⟩
abbrev S1 : Shape := ⟨1, ![1]⟩
abbrev S11 : Shape := ⟨2, ![1, 1]⟩
abbrev SL : Shape := ⟨2, ![1, 128]⟩
abbrev SA : Shape := ⟨3, ![1, 1, 128]⟩

/-- The shape relations the tile's operations take. -/
structure TileFacts : Prop where
  r1 : SB.Reduces [1] SRow
  c1 : SRow.ShapeCasts SCol
  r0 : SCol.Reduces [0] S1
  c0 : S1.ShapeCasts S11
  bc : S11.Broadcasts SL
  c3 : SA.ShapeCasts SL
  c4 : SL.ShapeCasts SA

variable {F : FTy → Type} [FloatOps F]

/-- The sum of a whole tile: lanes first (one sum per row), then rows. -/
def total (hf : TileFacts) (v : FVec F SB .f32) : FVec F S11 .f32 :=
  shapeCast S11 (multiReduction .add [0] S1
    (shapeCast SCol (multiReduction .add [1] SRow v 0x00000000#32 hf.r1 (.inl rfl) rfl) hf.c1)
    0x00000000#32 hf.r0 (.inl rfl) rfl) hf.c0

/-- Where the tile's label is `k`. -/
def binMask (lab : IVec SB 32) (k : BitVec 32) : IVec SB 1 := cmpi .eq lab (broadcast SB k)

/-- The tile's contribution to bin `k`'s sum. -/
def tileSum (hf : TileFacts) (x : FVec F SB .f32) (lab : IVec SB 32) (k : BitVec 32) : FVec F S11 .f32 :=
  total hf (select (binMask lab k) x (broadcast SB (Scalar.ofBits .f32 0x00000000#32)))

/-- The tile's contribution to bin `k`'s count. -/
def tileCnt (hf : TileFacts) (lab : IVec SB 32) (k : BitVec 32) : FVec F S11 .f32 :=
  total hf (sitofp .f32 (extui 32 (binMask lab k) (by decide)))

/-- Lane `k`'s indicator vector, from the lane numbers `io`. -/
def laneHot (io : IVec SL 32) (k : BitVec 32) : FVec F SL .f32 :=
  sitofp .f32 (extui 32 (cmpi .eq io (broadcast SL k)) (by decide))

/-- Add the contribution `tot` into the lanes `hot` marks. -/
def bump (hf : TileFacts) (prev : FVec F SA .f32) (tot : FVec F S11 .f32) (hot : FVec F SL .f32) : FVec F SA .f32 :=
  shapeCast SA (addf (shapeCast SL prev hf.c3) (mulf (broadcastTo SL tot hf.bc) hot)) hf.c4

/-- The sums' block after the bins `0 … n - 1` of one tile. -/
def accSum (hf : TileFacts) (x : FVec F SB .f32) (lab : IVec SB 32) (io : IVec SL 32) (prev : FVec F SA .f32) :
    Nat → FVec F SA .f32
  | 0 => prev
  | n + 1 => bump hf (accSum hf x lab io prev n) (tileSum hf x lab (BitVec.ofNat 32 n)) (laneHot io (BitVec.ofNat 32 n))

/-- The counts' block after the bins `0 … n - 1` of one tile. -/
def accCnt (hf : TileFacts) (lab : IVec SB 32) (io : IVec SL 32) (prev : FVec F SA .f32) : Nat → FVec F SA .f32
  | 0 => prev
  | n + 1 => bump hf (accCnt hf lab io prev n) (tileCnt (F := F) hf lab (BitVec.ofNat 32 n)) (laneHot io (BitVec.ofNat 32 n))

/-! ## Read over the extended reals -/

/-- The one index of a 1×1 block. -/
theorem idx11 (j : S11.Idx) : j = ix2 0 0 := by
  funext a
  match a with
  | ⟨0, _⟩ => exact Fin.ext (by have h : (j 0).val < 1 := idx2_lt0 j; show (j 0).val = 0; omega)
  | ⟨1, _⟩ => exact Fin.ext (by have h : (j 1).val < 1 := idx2_lt1 j; show (j 1).val = 0; omega)

/-- A lane reduction whose accumulator is the zero word, at the extended reals: the sum over the reduced axis. -/
theorem mred_single {s t : Shape} {a : Fin s.rank} (src : FVec Ideal s .f32) (h : s.Reduces [a] t)
    (hφ : FKind.Formats FTy.f32) (hacc : (0x00000000#32 : BitVec 32) = 0x00000000#32) (j : t.Idx) :
    multiReduction (F := Ideal) .add [a] t src 0x00000000#32 h hφ hacc j = ∑ k : Fin (s.size a), src (h.lift j k) :=
  Ideal.multiReduction_add_single src 0x00000000#32 h hφ hacc j

/-- The total of a tile is the double sum of its entries. -/
theorem total_apply (hf : TileFacts) (v : FVec Ideal SB .f32) (j : S11.Idx) :
    total hf v j = ∑ r : Fin 2000, ∑ q : Fin 128, v (ix2 r q) := by
  unfold total
  refine (shapeCast_apply _ hf.c0 j (ix1 (0 : Fin 1)) ?_).trans ?_
  · rw [idx11 j]; rfl
  refine (mred_single _ hf.r0 (.inl rfl) rfl (ix1 (0 : Fin 1))).trans ?_
  refine Finset.sum_congr rfl fun r _ => ?_
  refine (shapeCast_apply _ hf.c1 _ (ix1 r) ?_).trans ?_
  · rfl
  refine (mred_single v hf.r1 (.inl rfl) rfl (ix1 r)).trans ?_
  refine Finset.sum_congr rfl fun q _ => ?_
  exact congrArg v (funext fun a => by match a with | ⟨0, _⟩ => rfl | ⟨1, _⟩ => rfl)

/-- The histogram block's indices are (0, 0, lane): a shape cast between [1, 128] and [1, 1, 128] keeps the lane. -/
theorem rm_lane (l : Fin 128) : (SL.rowMajor (ix2 (0 : Fin 1) l)).val = (SA.rowMajor (ix3 (0 : Fin 1) (0 : Fin 1) l)).val := by
  rw [Shape.rowMajor_val_two, Shape.rowMajor_val_three]
  show 0 * 128 + l.val = (0 * 1 + 0) * 128 + l.val
  omega

/-- Adding a contribution into marked lanes, at lane `l`: what was there plus the contribution times the lane's mark. -/
theorem bump_apply (hf : TileFacts) (prev : FVec Ideal SA .f32) (tot : FVec Ideal S11 .f32) (hot : FVec Ideal SL .f32)
    (l : Fin 128) :
    bump hf prev tot hot (ix3 0 0 l) = prev (ix3 0 0 l) + tot (ix2 0 0) * hot (ix2 0 l) := by
  unfold bump
  refine (shapeCast_apply _ hf.c4 (ix3 0 0 l) (ix2 0 l) (rm_lane l)).trans ?_
  rw [addf_apply, mulf_apply]
  congr 1
  · exact shapeCast_apply _ hf.c3 (ix2 0 l) (ix3 0 0 l) (rm_lane l).symm
  · congr 1
    exact broadcastTo_apply _ hf.bc (ix2 0 l) (ix2 0 0) (fun a => by match a with | ⟨0, _⟩ => rfl | ⟨1, _⟩ => rfl)

/-- A one-bit word widened and read as a signed integer, as an extended real: one for the set bit, zero for the clear one. -/
theorem bit_to_real (b : BitVec 1) :
    FloatOps.sitofp (F := Ideal) .f32 (b.setWidth 32) = if b = 1#1 then (1 : EReal) else 0 := by
  show (((b.setWidth 32).toInt : ℝ) : EReal) = _
  rcases BitVec.eq_zero_or_eq_one b with rfl | rfl
  · rw [if_neg (by decide)]; norm_num
  · rw [if_pos rfl]; norm_num

/-- The word compare for equality is the set bit exactly at equal words. -/
theorem cmpi_eq_one {a b : BitVec 32} : IntOp.cmpi .eq a b = 1#1 ↔ a = b :=
  StableHlo.Predicate.cmpi_eq_iff

/-- The lane indicator at lane `l`: one where the lane number is `k`. -/
theorem laneHot_apply (io : IVec SL 32) (k : BitVec 32) (l : Fin 128) :
    laneHot (F := Ideal) io k (ix2 0 l) = if io (ix2 0 l) = k then (1 : EReal) else 0 := by
  unfold laneHot
  rw [sitofp_apply, extui_apply]
  refine (bit_to_real _).trans ?_
  exact if_congr cmpi_eq_one rfl rfl

/-- The tile's contribution to bin `k`'s sum: the values where the label is `k`, summed. -/
theorem tileSum_apply (hf : TileFacts) (x : FVec Ideal SB .f32) (lab : IVec SB 32) (k : BitVec 32) (j : S11.Idx) :
    tileSum hf x lab k j = ∑ r : Fin 2000, ∑ q : Fin 128, if lab (ix2 r q) = k then x (ix2 r q) else 0 := by
  unfold tileSum
  rw [total_apply]
  refine Finset.sum_congr rfl fun r _ => Finset.sum_congr rfl fun q _ => ?_
  rw [select_apply]
  show (if IntOp.cmpi .eq (lab (ix2 r q)) k = 1#1 then x (ix2 r q) else Ideal.ofBits .f32 0x00000000#32) = _
  rw [Ideal.ofBits_zero_f32]
  exact if_congr cmpi_eq_one rfl rfl

/-- The tile's contribution to bin `k`'s count: how many labels are `k`. -/
theorem tileCnt_apply (hf : TileFacts) (lab : IVec SB 32) (k : BitVec 32) (j : S11.Idx) :
    tileCnt (F := Ideal) hf lab k j = ∑ r : Fin 2000, ∑ q : Fin 128, if lab (ix2 r q) = k then (1 : EReal) else 0 := by
  unfold tileCnt
  rw [total_apply]
  refine Finset.sum_congr rfl fun r _ => Finset.sum_congr rfl fun q _ => ?_
  rw [sitofp_apply, extui_apply]
  refine (bit_to_real _).trans ?_
  exact if_congr cmpi_eq_one rfl rfl

/-- Distinct lane numbers below 128 are distinct words. -/
theorem ofNat_lane_inj {a b : Nat} (ha : a < 128) (hb : b ≤ 128) : BitVec.ofNat 32 a = BitVec.ofNat 32 b ↔ a = b := by
  constructor
  · intro h
    have := congrArg BitVec.toNat h
    simp only [BitVec.toNat_ofNat] at this
    omega
  · rintro rfl; rfl

/-- A block built bin by bin, each bin's contribution `T k` added into lane `k`: after the bins `0 … n - 1` lane `l`
    holds what it held plus `T l` when `l < n`. Over the extended reals `t · 1 = t` and `t · 0 = 0` for every `t`. -/
theorem acc_lane (hf : TileFacts) (io : IVec SL 32) (hio : ∀ l : Fin 128, io (ix2 0 l) = BitVec.ofNat 32 l.val)
    (prev : FVec Ideal SA .f32) (T : BitVec 32 → FVec Ideal S11 .f32) (acc : Nat → FVec Ideal SA .f32)
    (h0 : acc 0 = prev)
    (hs : ∀ n, acc (n + 1) = bump hf (acc n) (T (BitVec.ofNat 32 n)) (laneHot io (BitVec.ofNat 32 n)))
    (l : Fin 128) : ∀ n, n ≤ 128 →
      acc n (ix3 0 0 l) = prev (ix3 0 0 l) + if l.val < n then T (BitVec.ofNat 32 l.val) (ix2 0 0) else 0
  | 0, _ => by rw [h0, if_neg (Nat.not_lt_zero _), add_zero]
  | n + 1, hn => by
    rw [hs n, bump_apply, acc_lane hf io hio prev T acc h0 hs l n (Nat.le_of_succ_le hn), laneHot_apply, hio l]
    by_cases hl : l.val = n
    · have e : BitVec.ofNat 32 l.val = BitVec.ofNat 32 n := by rw [hl]
      rw [if_pos e]
      subst hl
      rw [if_neg (Nat.lt_irrefl _), if_pos (Nat.lt_succ_self _), add_zero, mul_one]
    · have e : ¬ BitVec.ofNat 32 l.val = BitVec.ofNat 32 n :=
        fun h => hl ((ofNat_lane_inj l.isLt (Nat.le_of_succ_le hn)).mp h)
      rw [if_neg e, mul_zero, add_zero]
      by_cases hlt : l.val < n
      · rw [if_pos hlt, if_pos (Nat.lt_succ_of_lt hlt)]
      · rw [if_neg hlt, if_neg (by omega)]

/-- The sums' block of a tile at lane `l`. -/
theorem accSum_apply (hf : TileFacts) (x : FVec Ideal SB .f32) (lab : IVec SB 32) (io : IVec SL 32)
    (hio : ∀ l : Fin 128, io (ix2 0 l) = BitVec.ofNat 32 l.val) (prev : FVec Ideal SA .f32) (n : Nat) (hn : n ≤ 128)
    (l : Fin 128) :
    accSum hf x lab io prev n (ix3 0 0 l) = prev (ix3 0 0 l) + if l.val < n then
      ∑ r : Fin 2000, ∑ q : Fin 128, (if lab (ix2 r q) = BitVec.ofNat 32 l.val then x (ix2 r q) else 0) else 0 := by
  rw [acc_lane hf io hio prev (fun k => tileSum hf x lab k) (accSum hf x lab io prev) rfl (fun _ => rfl) l n hn]
  by_cases hlt : l.val < n
  · rw [if_pos hlt, if_pos hlt, tileSum_apply]
  · rw [if_neg hlt, if_neg hlt]

/-- The counts' block of a tile at lane `l`. -/
theorem accCnt_apply (hf : TileFacts) (lab : IVec SB 32) (io : IVec SL 32)
    (hio : ∀ l : Fin 128, io (ix2 0 l) = BitVec.ofNat 32 l.val) (prev : FVec Ideal SA .f32) (n : Nat) (hn : n ≤ 128)
    (l : Fin 128) :
    accCnt hf lab io prev n (ix3 0 0 l) = prev (ix3 0 0 l) + if l.val < n then
      ∑ r : Fin 2000, ∑ q : Fin 128, (if lab (ix2 r q) = BitVec.ofNat 32 l.val then (1 : EReal) else 0) else 0 := by
  rw [acc_lane hf io hio prev (fun k => tileCnt (F := Ideal) hf lab k) (accCnt hf lab io prev) rfl (fun _ => rfl) l n hn]
  by_cases hlt : l.val < n
  · rw [if_pos hlt, if_pos hlt, tileCnt_apply]
  · rw [if_neg hlt, if_neg hlt]

end Cert.Hist

end
-- ==== Proof.KernelPieces.lean ====
/-
  What one grid point leaves in the two running histograms.

  At a grid point the body loads its tile of values and of labels and then, bin by bin, reads the histogram block,
  adds the tile's contribution into the bin's lane, and stores the block back whole. So the stores of one block form a
  chain: each store's payload is the update of what the previous store left, and the last store's payload is the block
  after all 65 bins. The run names each link of the chain; this module walks it link by link and never opens more
  than one link at a time.
-/
import proofs.«419708_j2456721293567_1_alg».proof.Proof.Gen.KernelIdeal.Frame
import proofs.«419708_j2456721293567_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.Hist

variable {F : FTy → Type} [FloatOps F]

theorem hz3 : (![0, 0, 0] : Fin 3 → Nat) = fun _ => 0 := funext fun a => by fin_cases a <;> rfl

/-- The tile's shape relations, from the program's. -/
theorem tf : TileFacts :=
  ⟨reduces_S2000x128_S2000, shapeCasts_S2000_S2000x1, reduces_S2000x1_S1, shapeCasts_S1_S1x1, broadcasts_S1x1_S1x128,
    shapeCasts_S1x1x128_S1x128, shapeCasts_S1x128_S1x1x128⟩

/-- A load of the whole block after a whole-block store, whatever was stored before it, reads that store's payload. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The whole histogram block, as a rectangle. -/
abbrev RA : Rect S1x1x128 := Rect.unit ![0, 0, 0] S1x1x128.size inb_S1x1x128_S1x1x128_0_0_0

/-- One link of the sums' chain: if the stores so far end with the block after `n` bins, and the next payload is the
    update of the read-back by bin `n`, the stores then end with the block after `n + 1` bins. -/
theorem sum_step {sp : Space} (a4 : Memref sig .tc sp S1x1x128 .f32) (X : FVec F S2000x128 .f32) (Lb : IVec S2000x128 32)
    (IO : IVec S1x128 32) (P0 : FVec F S1x1x128 .f32) {n : Nat} {Ls : List (View.Piece (Elt F) S1x1x128 .f32)}
    {p : FVec F S1x1x128 .f32}
    (h : ∃ L', Ls = (⟨RA, accSum tf X Lb IO P0 n⟩ : View.Piece (Elt F) S1x1x128 .f32) :: L')
    (hp : p = bump tf (a4.view.readCov Ls RA.toLoadRect) (tileSum tf X Lb (BitVec.ofNat 32 n)) (laneHot IO (BitVec.ofNat 32 n))) :
    ∃ L', ((⟨RA, p⟩ : View.Piece (Elt F) S1x1x128 .f32) :: Ls)
      = (⟨RA, accSum tf X Lb IO P0 (n + 1)⟩ : View.Piece (Elt F) S1x1x128 .f32) :: L' := by
  obtain ⟨L', rfl⟩ := h
  refine ⟨(⟨RA, accSum tf X Lb IO P0 n⟩ : View.Piece (Elt F) S1x1x128 .f32) :: L', ?_⟩
  rw [hp, readCov_cons_whole a4.view hz3]
  rfl

/-- CASE B, the sums: the stores into the sums' block end with the block after all 65 bins, started from what the
    block held. -/
theorem chain_B2 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x2000x128 .f32) (x1 : Vec F S1x2000x128 .i32) (xo2 xo3 : Vec F S1x1x128 .f32) :
    ∃ L', (kernelRun0_B c i a2 h2 a3 h3 a4 h4 a5 h5 hc x0 x1 xo2 xo3).1
      = (⟨RA, accSum tf (kernelRun0_B.sl.r c a2 h2 x0) (kernelRun0_B.sl.r_1 (F := F) c a3 h3 x1) kernelRun0_B.sl.v7
          (View.readAt (Elt F) a4.view RA.toLoadRect (h4.unread xo2)) 65⟩ : View.Piece (Elt F) S1x1x128 .f32) :: L' := by
  unfold kernelRun0_B
  dsimp only
  iterate 64 refine sum_step a4 _ _ _ _ ?_ rfl
  exact ⟨[], rfl⟩

/-- One link of the counts' chain. -/
theorem cnt_step {sp : Space} (a5 : Memref sig .tc sp S1x1x128 .f32) (Lb : IVec S2000x128 32)
    (IO : IVec S1x128 32) (P0 : FVec F S1x1x128 .f32) {n : Nat} {Ls : List (View.Piece (Elt F) S1x1x128 .f32)}
    {p : FVec F S1x1x128 .f32}
    (h : ∃ L', Ls = (⟨RA, accCnt tf Lb IO P0 n⟩ : View.Piece (Elt F) S1x1x128 .f32) :: L')
    (hp : p = bump tf (a5.view.readCov Ls RA.toLoadRect) (tileCnt (F := F) tf Lb (BitVec.ofNat 32 n)) (laneHot IO (BitVec.ofNat 32 n))) :
    ∃ L', ((⟨RA, p⟩ : View.Piece (Elt F) S1x1x128 .f32) :: Ls)
      = (⟨RA, accCnt tf Lb IO P0 (n + 1)⟩ : View.Piece (Elt F) S1x1x128 .f32) :: L' := by
  obtain ⟨L', rfl⟩ := h
  refine ⟨(⟨RA, accCnt tf Lb IO P0 n⟩ : View.Piece (Elt F) S1x1x128 .f32) :: L', ?_⟩
  rw [hp, readCov_cons_whole a5.view hz3]
  rfl

/-- CASE B, the counts. -/
theorem chain_B3 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x2000x128 .f32) (x1 : Vec F S1x2000x128 .i32) (xo2 xo3 : Vec F S1x1x128 .f32) :
    ∃ L', (kernelRun0_B c i a2 h2 a3 h3 a4 h4 a5 h5 hc x0 x1 xo2 xo3).2.1
      = (⟨RA, accCnt tf (kernelRun0_B.sl.r_1 (F := F) c a3 h3 x1) kernelRun0_B.sl.v7
          (View.readAt (Elt F) a5.view RA.toLoadRect (h5.unread xo3)) 65⟩ : View.Piece (Elt F) S1x1x128 .f32) :: L' := by
  unfold kernelRun0_B
  dsimp only
  iterate 64 refine cnt_step a5 _ _ _ ?_ rfl
  exact ⟨[], rfl⟩

/-- The zero block the first tile of a pair starts from. -/
abbrev zeroBlk : FVec F S1x1x128 .f32 := broadcast S1x1x128 (Scalar.ofBits .f32 0x00000000#32)

/-- CASE A, the sums: the zero block, then all 65 bins. -/
theorem chain_A2 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x2000x128 .f32) (x1 : Vec F S1x2000x128 .i32) :
    ∃ L', (kernelRun0_A c i a2 h2 a3 h3 a4 h4 a5 h5 hc x0 x1).1
      = (⟨RA, accSum tf (kernelRun0_A.sl.r c a2 h2 x0) (kernelRun0_A.sl.r_1 (F := F) c a3 h3 x1) kernelRun0_A.sl.v7
          (zeroBlk (F := F)) 65⟩ : View.Piece (Elt F) S1x1x128 .f32) :: L' := by
  unfold kernelRun0_A
  dsimp only
  iterate 65 refine sum_step a4 _ _ _ _ ?_ rfl
  exact ⟨[], rfl⟩

/-- CASE A, the counts. -/
theorem chain_A3 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x2000x128 .f32) (x1 : Vec F S1x2000x128 .i32) :
    ∃ L', (kernelRun0_A c i a2 h2 a3 h3 a4 h4 a5 h5 hc x0 x1).2.1
      = (⟨RA, accCnt tf (kernelRun0_A.sl.r_1 (F := F) c a3 h3 x1) kernelRun0_A.sl.v7
          (zeroBlk (F := F)) 65⟩ : View.Piece (Elt F) S1x1x128 .f32) :: L' := by
  unfold kernelRun0_A
  dsimp only
  iterate 65 refine cnt_step a5 _ _ _ ?_ rfl
  exact ⟨[], rfl⟩

/-! ## What a point leaves, as functions of its tile and of what the blocks held -/

/-- A tile of values and a tile of labels as the body reads them (the block's unit axis dropped), and the lane numbers. -/
abbrev xT (x0 : Vec F S1x2000x128 .f32) : FVec F S2000x128 .f32 := shapeCast S2000x128 x0 shapeCasts_S1x2000x128_S2000x128
abbrev lT (x1 : Vec F S1x2000x128 .i32) : IVec S2000x128 32 := shapeCast S2000x128 x1 shapeCasts_S1x2000x128_S2000x128
abbrev lanes : IVec S1x128 32 := iota .tc S1x128 32 [1] iota_S1x128_d1_w32

/-- A load of a whole buffer reads its contents. -/
theorem ld_x {sp : Space} (a : Memref sig .tc sp S1x2000x128 .f32) (h : a.IsWhole) (x : Vec F S1x2000x128 .f32) :
    View.readAt (Elt F) a.view (Rect.unit ![0, 0, 0] S1x2000x128.size inb_S1x2000x128_S1x2000x128_0_0_0).toLoadRect (h.unread x) = x := by
  simp only [View.readAt_eq_ld, h.read_unread, View.ld_unit_zero (S := S1x2000x128) hz3]
theorem ld_l {sp : Space} (a : Memref sig .tc sp S1x2000x128 .i32) (h : a.IsWhole) (x : Vec F S1x2000x128 .i32) :
    View.readAt (Elt F) a.view (Rect.unit ![0, 0, 0] S1x2000x128.size inb_S1x2000x128_S1x2000x128_0_0_0).toLoadRect (h.unread x) = x := by
  simp only [View.readAt_eq_ld, h.read_unread, View.ld_unit_zero (S := S1x2000x128) hz3]
theorem ld_o {sp : Space} (a : Memref sig .tc sp S1x1x128 .f32) (h : a.IsWhole) (x : Vec F S1x1x128 .f32) :
    View.readAt (Elt F) a.view RA.toLoadRect (h.unread x) = x := by
  simp only [View.readAt_eq_ld, h.read_unread, View.ld_unit_zero (S := S1x1x128) hz3]

/-- CASE B leaves, in the sums' block that held `xo2`, the block after the tile's 65 bins. -/
theorem out_B2 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x2000x128 .f32) (x1 : Vec F S1x2000x128 .i32) (xo2 xo3 : Vec F S1x1x128 .f32) :
    out0_B_2 c i a2 h2 a3 h3 a4 h4 a5 h5 hc x0 x1 xo2 xo3 = accSum tf (xT x0) (lT x1) lanes xo2 65 := by
  unfold out0_B_2
  rw [View.read_writes_eq_canon _ _ _ (cover0_B_2 c i a2 h2 a3 h3 a4 h4 a5 h5 hc x0 x1 xo2 xo3)]
  obtain ⟨L', hL⟩ := chain_B2 c i a2 h2 a3 h3 a4 h4 a5 h5 hc x0 x1 xo2 xo3
  rw [hL, View.canon_cons_unit_zero hz3, ld_o a4 h4 xo2]
  unfold kernelRun0_B.sl.r kernelRun0_B.sl.r_1 kernelRun0_B.sl.v7 k0_pay7 k0_pay8
  rw [ld_x a2 h2 x0, ld_l a3 h3 x1]

/-- CASE B leaves, in the counts' block that held `xo3`, the block after the tile's 65 bins. -/
theorem out_B3 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x2000x128 .f32) (x1 : Vec F S1x2000x128 .i32) (xo2 xo3 : Vec F S1x1x128 .f32) :
    out0_B_3 c i a2 h2 a3 h3 a4 h4 a5 h5 hc x0 x1 xo2 xo3 = accCnt tf (lT x1) lanes xo3 65 := by
  unfold out0_B_3
  rw [View.read_writes_eq_canon _ _ _ (cover0_B_3 c i a2 h2 a3 h3 a4 h4 a5 h5 hc x0 x1 xo2 xo3)]
  obtain ⟨L', hL⟩ := chain_B3 c i a2 h2 a3 h3 a4 h4 a5 h5 hc x0 x1 xo2 xo3
  rw [hL, View.canon_cons_unit_zero hz3, ld_o a5 h5 xo3]
  unfold kernelRun0_B.sl.r_1 kernelRun0_B.sl.v7 k0_pay8
  rw [ld_l a3 h3 x1]

/-- CASE A (the first tile of a pair) leaves the sums' block after the tile's 65 bins, from the zero block. -/
theorem out_A2 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x2000x128 .f32) (x1 : Vec F S1x2000x128 .i32) :
    out0_A_2 c i a2 h2 a3 h3 a4 h4 a5 h5 hc x0 x1 = accSum tf (xT x0) (lT x1) lanes (zeroBlk (F := F)) 65 := by
  unfold out0_A_2
  rw [View.read_writes_eq_canon _ _ _ (cover0_A_2 c i a2 h2 a3 h3 a4 h4 a5 h5 hc x0 x1)]
  obtain ⟨L', hL⟩ := chain_A2 c i a2 h2 a3 h3 a4 h4 a5 h5 hc x0 x1
  rw [hL, View.canon_cons_unit_zero hz3]
  unfold kernelRun0_A.sl.r kernelRun0_A.sl.r_1 kernelRun0_A.sl.v7 k0_pay7 k0_pay8
  rw [ld_x a2 h2 x0, ld_l a3 h3 x1]

/-- CASE A leaves the counts' block after the tile's 65 bins, from the zero block. -/
theorem out_A3 (c : Dev nD) (i : grid0.Coords) (a2 : Memref sig .tc .vmem S1x2000x128 .f32) (h2 : a2.IsWhole)
    (a3 : Memref sig .tc .vmem S1x2000x128 .i32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x2000x128 .f32) (x1 : Vec F S1x2000x128 .i32) :
    out0_A_3 c i a2 h2 a3 h3 a4 h4 a5 h5 hc x0 x1 = accCnt tf (lT x1) lanes (zeroBlk (F := F)) 65 := by
  unfold out0_A_3
  rw [View.read_writes_eq_canon _ _ _ (cover0_A_3 c i a2 h2 a3 h3 a4 h4 a5 h5 hc x0 x1)]
  obtain ⟨L', hL⟩ := chain_A3 c i a2 h2 a3 h3 a4 h4 a5 h5 hc x0 x1
  rw [hL, View.canon_cons_unit_zero hz3]
  unfold kernelRun0_A.sl.r_1 kernelRun0_A.sl.v7 k0_pay8
  rw [ld_l a3 h3 x1]

end Cert.KernelIdeal.Pieces

end
-- ==== Proof.KernelAcc.lean ====
/-
  The running histograms over the grid.

  The grid has 8 × 16 points: point `n` works on tile `n % 16` of pair `n / 16`. The sums' and counts' blocks are kept
  from one point to the next and restart from zero at the first tile of each pair. So after point `n` lane `l` of
  the sums' block holds the contributions to bin `l` of the tiles `0 … n % 16` of pair `n / 16` (and zero in the lanes
  past the bins); after the pair's last tile it holds the pair's whole sum for bin `l`.
-/
import proofs.«419708_j2456721293567_1_alg».proof.Proof.KernelPieces
import proofs.«419708_j2456721293567_1_alg».proof.Proof.Bins

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Pieces Cert.Hist

variable (m : (ℓ : Loc nD τ sig) → Buf (Elt Ideal) ℓ)

/-- The tile of values and the tile of labels at a point, and the two arrays as the region finds them. -/
abbrev xblk (c : Dev nD) (t : Fin cfg0.N) : Vec Ideal S1x2000x128 .f32 := iblk m c 0 t
abbrev lblk (c : Dev nD) (t : Fin cfg0.N) : Vec Ideal S1x2000x128 .i32 := iblk m c 1 t
abbrev x3 (c : Dev nD) : FVec Ideal S8x32000x128 .f32 := V m c main_v0
abbrev l3 (c : Dev nD) : IVec S8x32000x128 32 := V m c main_v1

/-- Point `p`'s contribution to bin `l`: the sum of its tile's values labelled `l` (zero past the bins). -/
def tS (c : Dev nD) (l : Fin 128) (p : Nat) : EReal :=
  if hp : p < cfg0.N then
    (if l.val < 65 then ∑ r : Fin 2000, ∑ q : Fin 128,
      (if lT (lblk m c ⟨p, hp⟩) (ix2 r q) = BitVec.ofNat 32 l.val then xT (xblk m c ⟨p, hp⟩) (ix2 r q) else 0) else 0)
  else 0

/-- Point `p`'s contribution to bin `l`'s count. -/
def tC (c : Dev nD) (l : Fin 128) (p : Nat) : EReal :=
  if hp : p < cfg0.N then
    (if l.val < 65 then ∑ r : Fin 2000, ∑ q : Fin 128,
      (if lT (lblk m c ⟨p, hp⟩) (ix2 r q) = BitVec.ofNat 32 l.val then (1 : EReal) else 0) else 0)
  else 0

/-- A quantity restarted at every 16th point and added up in between. -/
def pre (f : Nat → EReal) : Nat → EReal
  | 0 => f 0
  | n + 1 => if (n + 1) % 16 = 0 then f (n + 1) else pre f n + f (n + 1)

theorem pre_eq (f : Nat → EReal) : ∀ n, pre f n = if n % 16 = 0 then f n else pre f (n - 1) + f n
  | 0 => by rw [if_pos (Nat.zero_mod _)]; rfl
  | n + 1 => rfl

/-- Within row `b`, after tile `s`: the sum over the row's tiles `0 … s`. -/
theorem pre_row (f : Nat → EReal) (b : Nat) : ∀ s, s < 16 → pre f (16 * b + s) = ∑ j ∈ Finset.range (s + 1), f (16 * b + j)
  | 0, _ => by
    rw [pre_eq, if_pos (by omega), Finset.sum_range_one]
  | s + 1, hs => by
    rw [pre_eq, if_neg (by omega), show 16 * b + (s + 1) - 1 = 16 * b + s from by omega, pre_row f b s (by omega),
      Finset.sum_range_succ _ (s + 1)]

/-- The lane numbers are the lanes. -/
theorem hlanes (l : Fin 128) : (lanes : IVec S1x128 32) (ix2 0 l) = BitVec.ofNat 32 l.val :=
  iota_single_apply .tc S1x128 32 1 iota_S1x128_d1_w32 (ix2 0 l)

/-- The zero block is zero. -/
theorem zero_lane (l : Fin 128) : (zeroBlk (F := Ideal)) (ix3 0 0 l) = 0 := Ideal.ofBits_zero_f32

/-- After point `n`, lane `l` of the sums' block. -/
theorem inv_sum (c : Dev nD) (l : Fin 128) : ∀ (n : ℕ) (h : n < cfg0.N),
    (outsAt0 m c n h).1 (ix3 0 0 l) = pre (tS m c l) n
  | 0, h => by
    rw [outsAt0_A m c ⟨0, h⟩ rfl]
    dsimp only
    rw [out_A2, accSum_apply tf _ _ _ hlanes _ 65 (by omega) l, zero_lane, zero_add]
    show _ = tS m c l 0
    unfold tS
    rw [dif_pos h]
  | n + 1, h => by
    by_cases h0 : (n + 1) % 16 = 0
    · rw [outsAt0_A m c ⟨n + 1, h⟩ h0]
      dsimp only
      rw [out_A2, accSum_apply tf _ _ _ hlanes _ 65 (by omega) l, zero_lane, zero_add]
      show _ = if (n + 1) % 16 = 0 then tS m c l (n + 1) else pre (tS m c l) n + tS m c l (n + 1)
      rw [if_pos h0]
      unfold tS
      rw [dif_pos h]
    · rw [outsAt0_B m c ⟨n + 1, h⟩ h0]
      dsimp only
      rw [out_B2, accSum_apply tf _ _ _ hlanes _ 65 (by omega) l]
      show (outsAt0 m c n _).1 (ix3 0 0 l) + _ = if (n + 1) % 16 = 0 then tS m c l (n + 1) else pre (tS m c l) n + tS m c l (n + 1)
      rw [if_neg h0, inv_sum c l n]
      congr 1
      unfold tS
      rw [dif_pos h]

/-- After point `n`, lane `l` of the counts' block. -/
theorem inv_cnt (c : Dev nD) (l : Fin 128) : ∀ (n : ℕ) (h : n < cfg0.N),
    (outsAt0 m c n h).2 (ix3 0 0 l) = pre (tC m c l) n
  | 0, h => by
    rw [outsAt0_A m c ⟨0, h⟩ rfl]
    dsimp only
    rw [out_A3, accCnt_apply tf _ _ hlanes _ 65 (by omega) l, zero_lane, zero_add]
    show _ = tC m c l 0
    unfold tC
    rw [dif_pos h]
  | n + 1, h => by
    by_cases h0 : (n + 1) % 16 = 0
    · rw [outsAt0_A m c ⟨n + 1, h⟩ h0]
      dsimp only
      rw [out_A3, accCnt_apply tf _ _ hlanes _ 65 (by omega) l, zero_lane, zero_add]
      show _ = if (n + 1) % 16 = 0 then tC m c l (n + 1) else pre (tC m c l) n + tC m c l (n + 1)
      rw [if_pos h0]
      unfold tC
      rw [dif_pos h]
    · rw [outsAt0_B m c ⟨n + 1, h⟩ h0]
      dsimp only
      rw [out_B3, accCnt_apply tf _ _ hlanes _ 65 (by omega) l]
      show (outsAt0 m c n _).2 (ix3 0 0 l) + _ = if (n + 1) % 16 = 0 then tC m c l (n + 1) else pre (tC m c l) n + tC m c l (n + 1)
      rw [if_neg h0, inv_cnt c l n]
      congr 1
      unfold tC
      rw [dif_pos h]

/-! ## A tile is a block of the pair's rows -/

/-- The input windows' block numbers over the grid: the pair, the tile, and the one block of lanes. -/
theorem idx0_facts : ∀ t : Fin grid0.N,
    win0_0.index t 0 = t.val / 16 ∧ win0_0.index t 1 = t.val % 16 ∧ win0_0.index t 2 = 0 := by decide +kernel
theorem idx1_facts : ∀ t : Fin grid0.N,
    win0_1.index t 0 = t.val / 16 ∧ win0_1.index t 1 = t.val % 16 ∧ win0_1.index t 2 = 0 := by decide +kernel

/-- Dropping a block's unit axis keeps the row and the lane. -/
theorem rm_tile (r : Fin 2000) (q : Fin 128) :
    (S1x2000x128.rowMajor (ix3 (0 : Fin 1) r q)).val = (S2000x128.rowMajor (ix2 r q)).val := by
  rw [Shape.rowMajor_val_three, Shape.rowMajor_val_two]
  show (0 * 2000 + r.val) * 128 + q.val = r.val * 128 + q.val
  omega

/-- Entry (r, q) of the tile of values at point `16 bc + s` is the array's entry at pair `bc`, row `2000 s + r`, lane `q`. -/
theorem xblk_apply (c : Dev nD) (t : Fin cfg0.N) (bc : Fin 8) (s : Fin 16) (ht : t.val = 16 * bc.val + s.val)
    (r : Fin 2000) (q : Fin 128) :
    xT (xblk m c t) (ix2 r q) = x3 m c (ix3 bc (rowOf s r) q) := by
  refine (shapeCast_apply _ _ (ix2 r q) (ix3 0 r q) (rm_tile r q)).trans ?_
  unfold xblk iblk
  rw [View.read_apply]
  show V m c main_v0 _ = V m c main_v0 _
  congr 1
  funext a
  apply Fin.ext
  obtain ⟨e0, e1, e2⟩ := idx0_facts t
  match a with
  | ⟨0, _⟩ => show win0_0.index t 0 * 1 + 1 * 0 = bc.val; rw [e0, ht]; omega
  | ⟨1, _⟩ => show win0_0.index t 1 * 2000 + 1 * r.val = 2000 * s.val + r.val; rw [e1, ht]; omega
  | ⟨2, _⟩ => show win0_0.index t 2 * 128 + 1 * q.val = q.val; rw [e2]; omega

/-- The same for the tile of labels. -/
theorem lblk_apply (c : Dev nD) (t : Fin cfg0.N) (bc : Fin 8) (s : Fin 16) (ht : t.val = 16 * bc.val + s.val)
    (r : Fin 2000) (q : Fin 128) :
    lT (lblk m c t) (ix2 r q) = l3 m c (ix3 bc (rowOf s r) q) := by
  refine (shapeCast_apply _ _ (ix2 r q) (ix3 0 r q) (rm_tile r q)).trans ?_
  unfold lblk iblk
  rw [View.read_apply]
  show V m c main_v1 _ = V m c main_v1 _
  congr 1
  funext a
  apply Fin.ext
  obtain ⟨e0, e1, e2⟩ := idx1_facts t
  match a with
  | ⟨0, _⟩ => show win0_1.index t 0 * 1 + 1 * 0 = bc.val; rw [e0, ht]; omega
  | ⟨1, _⟩ => show win0_1.index t 1 * 2000 + 1 * r.val = 2000 * s.val + r.val; rw [e1, ht]; omega
  | ⟨2, _⟩ => show win0_1.index t 2 * 128 + 1 * q.val = q.val; rw [e2]; omega

/-- Tile `s` of pair `bc`: its contribution to bin `l`'s sum, over the arrays. -/
theorem tS_eq (c : Dev nD) (l : Fin 128) (bc : Fin 8) (s : Fin 16) :
    tS m c l (16 * bc.val + s.val) = if l.val < 65 then ∑ r : Fin 2000, ∑ q : Fin 128,
      (if l3 m c (ix3 bc (rowOf s r) q) = BitVec.ofNat 32 l.val then x3 m c (ix3 bc (rowOf s r) q) else 0) else 0 := by
  have hp : 16 * bc.val + s.val < cfg0.N := by rw [show cfg0.N = 128 from N_0]; omega
  unfold tS
  rw [dif_pos hp]
  by_cases hl : l.val < 65
  · rw [if_pos hl, if_pos hl]
    refine Finset.sum_congr rfl fun r _ => Finset.sum_congr rfl fun q _ => ?_
    rw [xblk_apply m c ⟨_, hp⟩ bc s rfl, lblk_apply m c ⟨_, hp⟩ bc s rfl]
  · rw [if_neg hl, if_neg hl]

/-- and to bin `l`'s count. -/
theorem tC_eq (c : Dev nD) (l : Fin 128) (bc : Fin 8) (s : Fin 16) :
    tC m c l (16 * bc.val + s.val) = if l.val < 65 then ∑ r : Fin 2000, ∑ q : Fin 128,
      (if l3 m c (ix3 bc (rowOf s r) q) = BitVec.ofNat 32 l.val then (1 : EReal) else 0) else 0 := by
  have hp : 16 * bc.val + s.val < cfg0.N := by rw [show cfg0.N = 128 from N_0]; omega
  unfold tC
  rw [dif_pos hp]
  by_cases hl : l.val < 65
  · rw [if_pos hl, if_pos hl]
    refine Finset.sum_congr rfl fun r _ => Finset.sum_congr rfl fun q _ => ?_
    rw [lblk_apply m c ⟨_, hp⟩ bc s rfl]
  · rw [if_neg hl, if_neg hl]

/-- After the last tile of pair `bc`, lane `l` of the sums' block is the pair's sum for bin `l`. -/
theorem sum_row (c : Dev nD) (l : Fin 128) (bc : Fin 8) :
    pre (tS m c l) (16 * bc.val + 15) = kSum (x3 m c) (l3 m c) bc l := by
  rw [pre_row _ _ 15 (by omega), Finset.sum_range (fun j => tS m c l (16 * bc.val + j))]
  unfold kSum
  by_cases hl : l.val < 65
  · rw [if_pos hl]
    refine Finset.sum_congr rfl fun s _ => ?_
    rw [tS_eq, if_pos hl]
  · rw [if_neg hl]
    refine Finset.sum_eq_zero fun s _ => ?_
    rw [tS_eq, if_neg hl]

/-- and lane `l` of the counts' block the pair's count. -/
theorem cnt_row (c : Dev nD) (l : Fin 128) (bc : Fin 8) :
    pre (tC m c l) (16 * bc.val + 15) = kCnt (l3 m c) bc l := by
  rw [pre_row _ _ 15 (by omega), Finset.sum_range (fun j => tC m c l (16 * bc.val + j))]
  unfold kCnt
  by_cases hl : l.val < 65
  · rw [if_pos hl]
    refine Finset.sum_congr rfl fun s _ => ?_
    rw [tC_eq, if_pos hl]
  · rw [if_neg hl]
    refine Finset.sum_eq_zero fun s _ => ?_
    rw [tC_eq, if_neg hl]

end Cert.KernelIdeal.Acc

end
-- ==== Proof.KernelFinal.lean ====
/-
  The two arrays the region leaves.

  Each pair's block is written back once, after the pair's last tile (the points `16 bc + 15`), and the 8 blocks tile
  the [8, 1, 128] array. So the sums' array ends holding, at (bc, 0, l), the sum of pair `bc`'s values labelled `l`
  (zero past the bins), and the counts' array the number of such values.
-/
import proofs.«419708_j2456721293567_1_alg».proof.Proof.KernelAcc
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Acc Cert.Hist

variable (m : (ℓ : Loc nD τ sig) → Buf (Elt Ideal) ℓ)

/-- The output windows' block numbers over the grid: the pair; the blocks are whole in the other two axes. -/
theorem idx2_facts : ∀ t : Fin grid0.N,
    win0_2.index t 0 = t.val / 16 ∧ win0_2.index t 1 = 0 ∧ win0_2.index t 2 = 0 := by decide +kernel
theorem idx3_facts : ∀ t : Fin grid0.N,
    win0_3.index t 0 = t.val / 16 ∧ win0_3.index t 1 = 0 ∧ win0_3.index t 2 = 0 := by decide +kernel

/-- The arrays the region leaves, in closed form. -/
abbrev G2 (c : Dev nD) : Buf (Elt Ideal) ((c.tc : Thread nD τ).loc main_v2_0) := kSumArr (x3 m c) (l3 m c)
abbrev G3 (c : Dev nD) : Buf (Elt Ideal) ((c.tc : Thread nD τ).loc main_v2_1) := kCntArr (l3 m c)

/-- An index of a histogram block is (0, 0, lane). -/
theorem blk_idx (y : S1x1x128.Idx) : ∃ l : Fin 128, y = ix3 0 0 l := by
  refine ⟨y 2, ?_⟩
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- What the write-back after pair `bc`'s last tile writes is block `bc` of the sums' array. -/
theorem flushed2_eq (c : Dev nD) (t : Fin cfg0.N) (hf : (cfg0.win 2).flush t = true) :
    (dats m 0 c).flushed 2 t = ((cfg0.win 2).blk t).view.read (Elt Ideal) (G2 m c) := by
  have hN : t.val < 128 := lt_of_lt_of_eq t.isLt (show cfg0.N = 128 from N_0)
  have h15 : t.val % 16 = 15 := (flush0_2 t).mp hf
  show (cfg0.win 2).cut (grid0.coords t) ((dats m 0 c).after 2 t) = _
  rw [after0_2]
  funext y
  obtain ⟨l, rfl⟩ := blk_idx y
  rw [View.read_apply]
  show (outsAt0 m c t.val t.isLt).1 (ix3 0 0 l) = kSum (x3 m c) (l3 m c) _ _
  rw [inv_sum m c l t.val t.isLt]
  have ht : t.val = 16 * (t.val / 16) + 15 := by omega
  have hb : t.val / 16 < 8 := by omega
  rw [show pre (tS m c l) t.val = pre (tS m c l) (16 * (⟨t.val / 16, hb⟩ : Fin 8).val + 15) from congrArg _ ht,
    sum_row m c l ⟨t.val / 16, hb⟩]
  obtain ⟨e0, e1, e2⟩ := idx2_facts t
  congr 1
  · exact Fin.ext (by show t.val / 16 = win0_2.index t 0 * 1 + 1 * 0; rw [e0]; omega)
  · exact Fin.ext (by show l.val = win0_2.index t 2 * 128 + 1 * l.val; rw [e2]; omega)

/-- What the write-back after pair `bc`'s last tile writes is block `bc` of the counts' array. -/
theorem flushed3_eq (c : Dev nD) (t : Fin cfg0.N) (hf : (cfg0.win 3).flush t = true) :
    (dats m 0 c).flushed 3 t = ((cfg0.win 3).blk t).view.read (Elt Ideal) (G3 m c) := by
  have hN : t.val < 128 := lt_of_lt_of_eq t.isLt (show cfg0.N = 128 from N_0)
  have h15 : t.val % 16 = 15 := (flush0_3 t).mp hf
  show (cfg0.win 3).cut (grid0.coords t) ((dats m 0 c).after 3 t) = _
  rw [after0_3]
  funext y
  obtain ⟨l, rfl⟩ := blk_idx y
  rw [View.read_apply]
  show (outsAt0 m c t.val t.isLt).2 (ix3 0 0 l) = kCnt (l3 m c) _ _
  rw [inv_cnt m c l t.val t.isLt]
  have ht : t.val = 16 * (t.val / 16) + 15 := by omega
  have hb : t.val / 16 < 8 := by omega
  rw [show pre (tC m c l) t.val = pre (tC m c l) (16 * (⟨t.val / 16, hb⟩ : Fin 8).val + 15) from congrArg _ ht,
    cnt_row m c l ⟨t.val / 16, hb⟩]
  obtain ⟨e0, e1, e2⟩ := idx3_facts t
  congr 1
  · exact Fin.ext (by show t.val / 16 = win0_3.index t 0 * 1 + 1 * 0; rw [e0]; omega)
  · exact Fin.ext (by show l.val = win0_3.index t 2 * 128 + 1 * l.val; rw [e2]; omega)

/-- The output blocks are whole blocks at every point. -/
theorem xs2_facts : ∀ t : Fin grid0.N, win0_2.xsize (grid0.coords t) 0 = 1 ∧ win0_2.xsize (grid0.coords t) 1 = 1
    ∧ win0_2.xsize (grid0.coords t) 2 = 128 := by decide +kernel
theorem xs3_facts : ∀ t : Fin grid0.N, win0_3.xsize (grid0.coords t) 0 = 1 ∧ win0_3.xsize (grid0.coords t) 1 = 1
    ∧ win0_3.xsize (grid0.coords t) 2 = 128 := by decide +kernel

/-- The point after which pair `bc`'s blocks are written back. -/
def lastOf (bc : Fin 8) : Fin cfg0.N := ⟨16 * bc.val + 15, by rw [show cfg0.N = 128 from N_0]; omega⟩

/-- Every index of the sums' array lies in the block written back after its pair's last tile. -/
theorem cover2 (i : S8x1x128.Idx) :
    ∃ t : Fin cfg0.N, (cfg0.win 2).flush t = true ∧ i ∈ ((cfg0.win 2).blk t).view.set := by
  have h0 : (i 0 : Nat) < 8 := (i 0).isLt
  have h1 : (i 1 : Nat) < 1 := (i 1).isLt
  have h2 : (i 2 : Nat) < 128 := (i 2).isLt
  refine ⟨lastOf (i 0), (flush0_2 _).mpr (by show (16 * (i 0 : Nat) + 15) % 16 = 15; omega), ?_⟩
  obtain ⟨e0, e1, e2⟩ := idx2_facts (lastOf (i 0))
  obtain ⟨s0, s1, s2⟩ := xs2_facts (lastOf (i 0))
  have hv : (lastOf (i 0)).val = 16 * (i 0 : Nat) + 15 := rfl
  show i ∈ ((View.whole main_v2_0).slice (win0_2.rect (lastOf (i 0)))).set
  rw [View.set_slice_whole, Rect.mem_set_unit]
  intro a
  match a with
  | ⟨0, _⟩ =>
    show win0_2.index (lastOf (i 0)) 0 * win0_2.size 0 ≤ (i 0 : Nat)
      ∧ (i 0 : Nat) < win0_2.index (lastOf (i 0)) 0 * win0_2.size 0 + win0_2.xsize (grid0.coords (lastOf (i 0))) 0
    rw [e0, s0, hv, show win0_2.size 0 = 1 from rfl]; omega
  | ⟨1, _⟩ =>
    show win0_2.index (lastOf (i 0)) 1 * win0_2.size 1 ≤ (i 1 : Nat)
      ∧ (i 1 : Nat) < win0_2.index (lastOf (i 0)) 1 * win0_2.size 1 + win0_2.xsize (grid0.coords (lastOf (i 0))) 1
    rw [e1, s1, show win0_2.size 1 = 1 from rfl]; omega
  | ⟨2, _⟩ =>
    show win0_2.index (lastOf (i 0)) 2 * win0_2.size 2 ≤ (i 2 : Nat)
      ∧ (i 2 : Nat) < win0_2.index (lastOf (i 0)) 2 * win0_2.size 2 + win0_2.xsize (grid0.coords (lastOf (i 0))) 2
    rw [e2, s2, show win0_2.size 2 = 128 from rfl]; omega

/-- and the same for the counts' array. -/
theorem cover3 (i : S8x1x128.Idx) :
    ∃ t : Fin cfg0.N, (cfg0.win 3).flush t = true ∧ i ∈ ((cfg0.win 3).blk t).view.set := by
  have h0 : (i 0 : Nat) < 8 := (i 0).isLt
  have h1 : (i 1 : Nat) < 1 := (i 1).isLt
  have h2 : (i 2 : Nat) < 128 := (i 2).isLt
  refine ⟨lastOf (i 0), (flush0_3 _).mpr (by show (16 * (i 0 : Nat) + 15) % 16 = 15; omega), ?_⟩
  obtain ⟨e0, e1, e2⟩ := idx3_facts (lastOf (i 0))
  obtain ⟨s0, s1, s2⟩ := xs3_facts (lastOf (i 0))
  have hv : (lastOf (i 0)).val = 16 * (i 0 : Nat) + 15 := rfl
  show i ∈ ((View.whole main_v2_1).slice (win0_3.rect (lastOf (i 0)))).set
  rw [View.set_slice_whole, Rect.mem_set_unit]
  intro a
  match a with
  | ⟨0, _⟩ =>
    show win0_3.index (lastOf (i 0)) 0 * win0_3.size 0 ≤ (i 0 : Nat)
      ∧ (i 0 : Nat) < win0_3.index (lastOf (i 0)) 0 * win0_3.size 0 + win0_3.xsize (grid0.coords (lastOf (i 0))) 0
    rw [e0, s0, hv, show win0_3.size 0 = 1 from rfl]; omega
  | ⟨1, _⟩ =>
    show win0_3.index (lastOf (i 0)) 1 * win0_3.size 1 ≤ (i 1 : Nat)
      ∧ (i 1 : Nat) < win0_3.index (lastOf (i 0)) 1 * win0_3.size 1 + win0_3.xsize (grid0.coords (lastOf (i 0))) 1
    rw [e1, s1, show win0_3.size 1 = 1 from rfl]; omega
  | ⟨2, _⟩ =>
    show win0_3.index (lastOf (i 0)) 2 * win0_3.size 2 ≤ (i 2 : Nat)
      ∧ (i 2 : Nat) < win0_3.index (lastOf (i 0)) 2 * win0_3.size 2 + win0_3.xsize (grid0.coords (lastOf (i 0))) 2
    rw [e2, s2, show win0_3.size 2 = 128 from rfl]; omega

/-- So the region leaves the sums' array at its closed form, -/
theorem final2 (c : Dev nD) : (dats m 0 c).arrAt 2 cfg0.N = G2 m c :=
  (dats m 0 c).arrAt_eq_of_cover 2 (G2 m c) (flushed2_eq m c) cover2

/-- and the counts' array at its. -/
theorem final3 (c : Dev nD) : (dats m 0 c).arrAt 3 cfg0.N = G3 m c :=
  (dats m 0 c).arrAt_eq_of_cover 3 (G3 m c) (flushed3_eq m c) cover3

end Cert.KernelIdeal.Final

end
-- ==== Proof.KernelTail.lean ====
/-
  The kernel program's host steps around its region.

  Before the region the two inputs are reshaped to [8, 32000, 128]. After it, each of the region's two [8, 1, 128]
  arrays is reshaped to [8, 128], cut to its first 65 lanes and reshaped to [2, 4, 65]; the rest of the program is the
  dice tail of those two arrays.
-/
import proofs.«419708_j2456721293567_1_alg».proof.Proof.Gen.KernelIdeal.Frame
import proofs.«419708_j2456721293567_1_alg».proof.Proof.Bins
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen Cert.Hist

/-- The kernel program's shape relations, as the bins and the tail take them. -/
theorem kf : KGlueFacts :=
  ⟨shapeCasts_S2x4x160x160x160_S8x32000x128, shapeCasts_S8x1x128_S8x128, slices_S8x128_S8x65_0_0, shapeCasts_S8x65_S2x4x65⟩

theorem tfK : TailFacts :=
  ⟨bcast_S_S2x4x65, bcast_S65_S1x1x65_2, bcast_S_S1x1x65, bcast_S1x1x65_S2x4x65_0_1_2, bcast_S4_S1x4x1_1, bcast_S_S1x4x1,
    bcast_S1x4x1_S2x4x65_0_1_2, natLt_1_32, reducesTo_S2x4x65_S2_d1_2, h_S_, bcast_S_S2, reducesTo_S2_S_d0⟩

variable {F : FTy → Type} [FloatOps F]
variable (m : (ℓ : Loc nD τ sig) → Buf (Elt F) ℓ)

/-- The values as the region finds them: the first input, reshaped. -/
theorem V_v0 (c : Dev nD) :
    (V m c main_v0 : S8x32000x128.Idx → Elt F .f32) = shapeCast S3 (m ((c.tc : Thread nD τ).loc main_arg0)) kf.c5 := by
  show StableHlo.after hostOps0 (fun b => m (c, b)) (Proc.devRef .tc main_v0) = _
  after_results
  rfl

/-- The labels as the region finds them: the third input, reshaped. -/
theorem V_v1 (c : Dev nD) :
    (V m c main_v1 : S8x32000x128.Idx → Elt F .i32) = shapeCast S3 (m ((c.tc : Thread nD τ).loc main_arg2)) kf.c5 := by
  show StableHlo.after hostOps0 (fun b => m (c, b)) (Proc.devRef .tc main_v1) = _
  after_results
  rfl

set_option maxHeartbeats 8000000 in
/-- What the program returns, from the region's two arrays `A2`, `A3`: the tail of their bins. -/
theorem tail_eq (c : Dev nD) (V₀ : Valuation τ sig (Elt F))
    (A : (w : Fin cfg0.W) → Buf (Elt F) ((spec0 w).arr.view.loc (c.tc : Thread nD τ))) :
    StableHlo.after (List.flatten [hostOps1, hostOps1_1, hostOps1_2]) (Pipeline.withArrays spec0 c V₀ A) (Proc.devRef .tc main_v45)
      = tail tfK (kBins kf (A 2)) (kBins kf (A 3)) := by
  simp only [hostOps1, hostOps1_1, hostOps1_2, List.flatten_cons, List.flatten_nil, List.append_nil, List.cons_append,
    List.nil_append]
  after_results_simp
  have e2 : Pipeline.withArrays spec0 c V₀ A (Proc.devRef .tc main_v2_0) = A 2 :=
    Pipeline.withArrays_arr spec0 winFacts0.arr_inj c V₀ A 2
  have e3 : Pipeline.withArrays spec0 c V₀ A (Proc.devRef .tc main_v2_1) = A 3 :=
    Pipeline.withArrays_arr spec0 winFacts0.arr_inj c V₀ A 3
  rw [e2, e3]
  rfl

end Cert.KernelIdeal.Tail

end
-- ==== Proof.KernelRun.lean ====
/-
  The kernel program's run, read: it returns the tail of the bins of its two inputs' reshapes, and leaves its
  arguments unchanged.
-/
import proofs.«419708_j2456721293567_1_alg».proof.Proof.KernelFinal
import proofs.«419708_j2456721293567_1_alg».proof.Proof.KernelTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Acc Cert.KernelIdeal.Final Cert.KernelIdeal.Tail Cert.Hist

variable (m : (ℓ : Loc nD τ sig) → Buf (Elt Ideal) ℓ) (ρ : Dev nD → PrngReg)

/-- What the program returns on core `c`, as a function of its arguments. -/
def result (c : Dev nD) : Buf (Elt Ideal) ((c.tc : Thread nD τ).loc main_v45) :=
  tail (F := Ideal) tfK
    (kBins kf (kSumArr (shapeCast S3 (m ((c.tc : Thread nD τ).loc main_arg0)) kf.c5)
      (shapeCast S3 (m ((c.tc : Thread nD τ).loc main_arg2)) kf.c5)))
    (kBins kf (kCntArr (shapeCast S3 (m ((c.tc : Thread nD τ).loc main_arg2)) kf.c5)))

/-- The tail's value after the region, from the closed forms of the region's arrays. -/
theorem after_eq (c : Dev nD) :
    Pipeline.afterTail₀ cfgs (dats m) 0 (V0 m) [hostOps1, hostOps1_1, hostOps1_2] c main_v45 = result m c := by
  unfold Pipeline.afterTail₀
  refine (tail_eq c (V0 m c) (fun w => (dats m 0 c).arrAt w cfg0.N)).trans ?_
  show tail (F := Ideal) tfK (kBins kf ((dats m 0 c).arrAt 2 cfg0.N)) (kBins kf ((dats m 0 c).arrAt 3 cfg0.N)) = _
  rw [final2, final3]
  show tail (F := Ideal) tfK (kBins kf (kSumArr (x3 m c) (l3 m c))) (kBins kf (kCntArr (l3 m c))) = _
  rw [show x3 m c = _ from V_v0 m c, show l3 m c = _ from V_v1 m c]
  rfl

/-- The run: the result at its closed form, the three arguments unchanged. -/
theorem run : θ_run defs (onTc (τ := τ) (main (F := Ideal))) ⟨m, fun _ => 0, ρ⟩ fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v45 (Pipeline.mem_restRefs_of main_v45 (by decide) (by decide))).trans (after_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.KerBins.lean ====
/-
  The kernel's bins read at a bin: lane `k` of pair `4 b + c`'s block, through the reshape, the slice of the first 65
  lanes and the split of the pairs; and the triple sum over tiles, rows and lanes as one sum over the flat positions of
  the pair.
-/
import proofs.«419708_j2456721293567_1_alg».proof.Proof.Bins
import Idealize.ShloMosaic.PureOps.Ideal
import Idealize.ShloMosaic.Lib.ValueIdx
import Idealize.ShloMosaic.Lib.Pipeline.Value

noncomputable section

namespace Cert.Hist

open Idealize.ShloMosaic Idealize.ShloMosaic.ValueIdx

/-- The kernel's bins at `(b, c, k)`: lane `k` of block `4 b + c`. -/
theorem kBins_apply {α : Type} (hk : KGlueFacts) (arr : SO3.Idx → α) (b : Fin 2) (c : Fin 4) (k : Fin 65) :
    kBins hk arr (ix3 b c k) = arr (ix3 (pairIx b c) 0 (laneIx k)) := by
  unfold kBins
  -- (b, c, k) of [2, 4, 65] is row-major position 65 (4 b + c) + k: row 4 b + c, column k of [8, 65]
  refine (shapeCast_apply _ hk.c65 (ix3 b c k) (ix2 (pairIx b c) k) ?_).trans ?_
  · rw [Shape.rowMajor_val_two, Shape.rowMajor_val_three]
    show (pairIx b c).val * 65 + k.val = (b.val * 4 + c.val) * 65 + k.val
    show (4 * b.val + c.val) * 65 + k.val = (b.val * 4 + c.val) * 65 + k.val
    omega
  -- the slice has zero offsets: the same row, the same column among the 128 lanes
  refine (extractStridedSlice_apply ![0, 0] _ hk.sl (ix2 (pairIx b c) k) (ix2 (pairIx b c) (laneIx k)) ?_).trans ?_
  · intro a
    match a with
    | ⟨0, _⟩ => show (pairIx b c).val = 0 + (pairIx b c).val; omega
    | ⟨1, _⟩ => show (laneIx k).val = 0 + k.val; show k.val = 0 + k.val; omega
  -- dropping the unit axis keeps the row-major position
  refine shapeCast_apply arr hk.c8 (ix2 (pairIx b c) (laneIx k)) (ix3 (pairIx b c) 0 (laneIx k)) ?_
  rw [Shape.rowMajor_val_two, Shape.rowMajor_val_three]
  show ((pairIx b c).val * 1 + 0) * 128 + (laneIx k).val = (pairIx b c).val * 128 + (laneIx k).val
  omega

/-! ## The flat positions of a pair

Pair `bc` holds the flat positions `4096000 bc ≤ e < 4096000 (bc + 1)`; lane `q` of row `2000 t + r` of the pair is
position `4096000 bc + 128 (2000 t + r) + q`, and every position of the pair is of this form for exactly one
`(t, r, q)`. -/

/-- The flat position of lane `q` of row `r` of tile `t` of pair `bc`. -/
def posOf (bc : Fin 8) (t : Fin 16) (r : Fin 2000) (q : Fin 128) : Fin 32768000 :=
  ⟨4096000 * bc.val + 128 * (2000 * t.val + r.val) + q.val, by omega⟩

/-- The tile, row and lane of a flat position within its pair. -/
def tileOf (e : Fin 32768000) : Fin 16 × Fin 2000 × Fin 128 :=
  (⟨e.val % 4096000 / 256000, by omega⟩, ⟨e.val % 256000 / 128, by omega⟩, ⟨e.val % 128, by omega⟩)

/-- The [8, 32000, 128] view of an input at `(bc, 2000 t + r, q)` and its flat view at `posOf bc t r q` are the input at
    the same row-major position. -/
theorem cast3_eq_flatOf {α : Type} (hk : KGlueFacts) (hr : RFacts) (x : S5.Idx → α) (bc : Fin 8) (t : Fin 16)
    (r : Fin 2000) (q : Fin 128) :
    shapeCast S3 x hk.c5 (ix3 bc (rowOf t r) q) = flatOf hr x (posOf bc t r q) := by
  unfold flatOf
  show _ = x (Shape.reshapeEquiv hr.c5f (ix1 (posOf bc t r q)))
  refine shapeCast_apply x hk.c5 _ _ ?_
  rw [Shape.rowMajor_reshapeEquiv, Shape.rowMajor_val_one, Shape.rowMajor_val_three]
  show (posOf bc t r q).val = (bc.val * 32000 + (rowOf t r).val) * 128 + q.val
  show 4096000 * bc.val + 128 * (2000 * t.val + r.val) + q.val = (bc.val * 32000 + (2000 * t.val + r.val)) * 128 + q.val
  omega

/-- The sum over tiles, rows and lanes of a function of the flat position is its sum over the positions of the pair:
    `(t, r, q) ↦ posOf bc t r q` is a bijection onto them, with inverse `e ↦ (e mod 4096000 / 256000, e mod 256000 / 128,
    e mod 128)`. -/
theorem sum_tiles {M : Type*} [AddCommMonoid M] (g : Fin 32768000 → M) (bc : Fin 8) :
    ∑ t : Fin 16, ∑ r : Fin 2000, ∑ q : Fin 128, g (posOf bc t r q)
      = ∑ e ∈ Finset.univ.filter (fun e : Fin 32768000 => e.val / 4096000 = bc.val), g e := by
  have h1 : ∑ t : Fin 16, ∑ r : Fin 2000, ∑ q : Fin 128, g (posOf bc t r q)
      = ∑ z : Fin 16 × Fin 2000 × Fin 128, g (posOf bc z.1 z.2.1 z.2.2) := by
    simp only [Fintype.sum_prod_type]
  rw [h1]
  refine Finset.sum_nbij' (fun z => posOf bc z.1 z.2.1 z.2.2) tileOf ?_ ?_ ?_ ?_ ?_
  · intro z _
    refine Finset.mem_filter.mpr ⟨Finset.mem_univ _, ?_⟩
    show (4096000 * bc.val + 128 * (2000 * z.1.val + z.2.1.val) + z.2.2.val) / 4096000 = bc.val
    omega
  · intro e _
    simp only [Finset.mem_univ]
  · intro z _
    refine Prod.ext (Fin.ext ?_) (Prod.ext (Fin.ext ?_) (Fin.ext ?_))
    · show (4096000 * bc.val + 128 * (2000 * z.1.val + z.2.1.val) + z.2.2.val) % 4096000 / 256000 = z.1.val
      omega
    · show (4096000 * bc.val + 128 * (2000 * z.1.val + z.2.1.val) + z.2.2.val) % 256000 / 128 = z.2.1.val
      omega
    · show (4096000 * bc.val + 128 * (2000 * z.1.val + z.2.1.val) + z.2.2.val) % 128 = z.2.2.val
      omega
  · intro e he
    have hb : e.val / 4096000 = bc.val := (Finset.mem_filter.mp he).2
    refine Fin.ext ?_
    show 4096000 * bc.val + 128 * (2000 * (e.val % 4096000 / 256000) + e.val % 256000 / 128) + e.val % 128 = e.val
    omega
  · intro z _
    rfl

/-- The same with a condition on the position: the terms that fail it are zero on the left and left out on the right. -/
theorem sum_tiles_filter {M : Type*} [AddCommMonoid M] (f : Fin 32768000 → M) (P : Fin 32768000 → Prop)
    [DecidablePred P] (bc : Fin 8) :
    ∑ t : Fin 16, ∑ r : Fin 2000, ∑ q : Fin 128, (if P (posOf bc t r q) then f (posOf bc t r q) else 0)
      = ∑ e ∈ Finset.univ.filter (fun e : Fin 32768000 => e.val / 4096000 = bc.val ∧ P e), f e := by
  refine (sum_tiles (fun e => if P e then f e else 0) bc).trans ?_
  rw [← Finset.filter_filter]
  exact (Finset.sum_filter _ _).symm

/-- The kernel's sum for bin `k` of pair `bc`, over the flat positions. -/
theorem kSum_flat (hk : KGlueFacts) (hr : RFacts) (x : FVec Ideal S5 .f32) (lab : IVec S5 32) (bc : Fin 8) (k : Fin 65) :
    kSum (shapeCast S3 x hk.c5) (shapeCast S3 lab hk.c5) bc (laneIx k) = ∑ e ∈ binSet hr lab bc k, flatOf hr x e := by
  unfold kSum binSet
  rw [if_pos (show (laneIx k).val < 65 from k.isLt)]
  refine Eq.trans ?_ (sum_tiles_filter (fun e => flatOf hr x e) (fun e => flatOf hr lab e = BitVec.ofNat 32 k.val) bc)
  refine Finset.sum_congr rfl fun t _ => Finset.sum_congr rfl fun r _ => Finset.sum_congr rfl fun q _ => ?_
  rw [cast3_eq_flatOf hk hr, cast3_eq_flatOf hk hr]
  rfl

/-- The kernel's count for bin `k` of pair `bc`, over the flat positions. -/
theorem kCnt_flat (hk : KGlueFacts) (hr : RFacts) (lab : IVec S5 32) (bc : Fin 8) (k : Fin 65) :
    kCnt (shapeCast S3 lab hk.c5) bc (laneIx k) = ∑ e ∈ binSet hr lab bc k, (1 : EReal) := by
  unfold kCnt binSet
  rw [if_pos (show (laneIx k).val < 65 from k.isLt)]
  refine Eq.trans ?_ (sum_tiles_filter (fun _ => (1 : EReal)) (fun e => flatOf hr lab e = BitVec.ofNat 32 k.val) bc)
  refine Finset.sum_congr rfl fun t _ => Finset.sum_congr rfl fun r _ => Finset.sum_congr rfl fun q _ => ?_
  rw [cast3_eq_flatOf hk hr]
  rfl

end Cert.Hist

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«419708_j2456721293567_1_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.RefBins.lean ====
/-
  The reference's segment sums read at a bin: bin `k` of pair `(b, c)` is the sum of the updates at the flat positions of
  that pair whose label is `k`, when every label is a bin number.
-/
import proofs.«419708_j2456721293567_1_alg».proof.Proof.Bins
import proofs.«419708_j2456721293567_1_alg».proof.Proof.LibScatter
import Idealize.ShloMosaic.PureOps.Ideal
import Idealize.ShloMosaic.PureOps.Ideal.Laws
import Idealize.ShloMosaic.Lib.ValueIdx
import Idealize.ShloMosaic.Lib.Pipeline.Value

noncomputable section

namespace Cert.Hist

open Idealize.ShloMosaic Idealize.ShloMosaic.ValueIdx

/-! ## Words -/

/-- A word whose signed value is in `[0, 65)` has that value as its unsigned value. -/
theorem toNat_of_range (w : BitVec 32) (h0 : 0 ≤ w.toInt) (h1 : w.toInt < 65) : (w.toNat : Int) = w.toInt := by
  rw [BitVec.toInt_eq_toNat_cond] at h0 h1 ⊢
  split_ifs at h0 h1 ⊢ <;> omega

/-- The segment word `p · 65 + w` of a pair number `p < 8` and a label `w` in `[0, 65)` does not wrap: its signed value
    is `65 p + w`. -/
theorem segWord_toInt (p : Nat) (hp : p < 8) (w : BitVec 32) (h0 : 0 ≤ w.toInt) (h1 : w.toInt < 65) :
    (BitVec.ofNat 32 p * 65#32 + w).toInt = 65 * (p : Int) + w.toInt := by
  have hw := toNat_of_range w h0 h1
  rw [BitVec.toInt_eq_toNat_cond]
  simp only [BitVec.toNat_add, BitVec.toNat_mul, BitVec.toNat_ofNat]
  have e65 : (65#32 : BitVec 32).toNat = 65 := rfl
  rw [e65] at *
  split_ifs <;> omega

/-- A word in `[0, 65)` is determined by its signed value. -/
theorem word_eq_ofNat_iff (w : BitVec 32) (h0 : 0 ≤ w.toInt) (h1 : w.toInt < 65) (k : Nat) (hk : k < 65) :
    w.toInt = (k : Int) ↔ w = BitVec.ofNat 32 k := by
  have hw := toNat_of_range w h0 h1
  constructor
  · intro h
    apply BitVec.eq_of_toNat_eq
    rw [BitVec.toNat_ofNat]
    omega
  · intro h
    rw [← hw, h, BitVec.toNat_ofNat]
    omega

/-! ## Layout steps read at an index -/

/-- A reshape reads the operand at the index with the same row-major position. -/
theorem shapeCast_def {s t : Shape} {α : Type} (x : s.Idx → α) (h : s.ShapeCasts t) (j : t.Idx) :
    shapeCast t x h j = x (Shape.reshapeEquiv h j) := rfl

/-- Word addition is pointwise. -/
theorem addi_at {s : Shape} (x y : IVec s 32) (i : s.Idx) : addi x y i = x i + y i := rfl

/-- Word multiplication is pointwise. -/
theorem muli_at {s : Shape} (x y : IVec s 32) (i : s.Idx) : muli x y i = x i * y i := rfl

/-- A flat array broadcast to a column reads, at `(e, 0)`, the array at `e`. -/
theorem col_apply {α : Type} (hr : RFacts) (x : SFlat.Idx → α) (e : Fin 32768000) :
    broadcastInDim SFlat1 ![0] hr.bf1 x (ix2 e 0) = x (ix1 e) := by
  refine broadcastInDim_apply _ _ _ _ _ ?_
  intro a
  match a with
  | ⟨0, h0⟩ =>
    have hne : ¬ (SFlat.size ⟨0, h0⟩ = 1) := by
      show ¬ ((32768000 : Nat) = 1)
      omega
    rw [if_neg hne]
    rfl

/-- A column of 8 broadcast along the rows reads, at `m`, the column at `m`'s row. -/
theorem rows_apply {α : Type} (hr : RFacts) (y : S8x1.Idx → α) (m : S8xM.Idx) :
    broadcastInDim S8xM ![0, 1] hr.b81 y m = y (ix2 (m 0) 0) := by
  refine broadcastInDim_apply _ _ _ _ _ ?_
  intro a
  match a with
  | ⟨0, h0⟩ =>
    have hne : ¬ (S8x1.size ⟨0, h0⟩ = 1) := by
      show ¬ ((8 : Nat) = 1)
      omega
    rw [if_neg hne]
    rfl
  | ⟨1, h1⟩ =>
    have he : S8x1.size ⟨1, h1⟩ = 1 := rfl
    rw [if_pos he]
    rfl

/-- A vector of 8 broadcast to a column reads, at `(p, 0)`, the vector at `p`. -/
theorem col8_apply {α : Type} (hr : RFacts) (z : S8v.Idx → α) (p : Fin 8) :
    broadcastInDim S8x1 ![0] hr.b8 z (ix2 p 0) = z (ix1 p) := by
  refine broadcastInDim_apply _ _ _ _ _ ?_
  intro a
  match a with
  | ⟨0, h0⟩ =>
    have hne : ¬ (S8v.size ⟨0, h0⟩ = 1) := by
      show ¬ ((8 : Nat) = 1)
      omega
    rw [if_neg hne]
    rfl

/-- The row of the [8, 4096000] index at flat position `e` is `e / 4096000`. -/
theorem row_of_flat (hr : RFacts) (e : Fin 32768000) :
    ((Shape.reshapeEquiv hr.cmf (ix1 e) : S8xM.Idx) 0).val = e.val / 4096000 := by
  have h := Shape.rowMajor_reshapeEquiv hr.cmf (ix1 e)
  rw [Shape.rowMajor_val_two, Shape.rowMajor_val_one] at h
  have h1 : ((Shape.reshapeEquiv hr.cmf (ix1 e) : S8xM.Idx) 1).val < 4096000 :=
    idx2_lt1 (Shape.reshapeEquiv hr.cmf (ix1 e) : S8xM.Idx)
  have h2 : ((Shape.reshapeEquiv hr.cmf (ix1 e) : S8xM.Idx) 0).val * 4096000
      + ((Shape.reshapeEquiv hr.cmf (ix1 e) : S8xM.Idx) 1).val = e.val := h
  omega

/-- The pair part of the segment word: the row of `e`, as a word, times 65. -/
theorem pairWord_apply (hr : RFacts) (e : Fin 32768000) :
    broadcastInDim S8xM ![0, 1] hr.b81
      (muli (broadcastInDim S8x1 ![0] hr.b8 (iotaInDim S8v 32 0)) (broadcastInDim S8x1 ![] hr.b0 (constantI S0 32 65#32)))
      (Shape.reshapeEquiv hr.cmf (ix1 e)) = BitVec.ofNat 32 (e.val / 4096000) * 65#32 := by
  refine (rows_apply hr _ _).trans ?_
  refine (muli_at _ _ _).trans ?_
  refine (congrArg (· * 65#32) (col8_apply hr (iotaInDim S8v 32 0)
    ((Shape.reshapeEquiv hr.cmf (ix1 e) : S8xM.Idx) 0))).trans ?_
  show BitVec.ofNat 32 ((Shape.reshapeEquiv hr.cmf (ix1 e) : S8xM.Idx) 0).val * 65#32 = _
  rw [row_of_flat hr]

/-- The label part of the segment word: both reshapes of the labels read the same row-major position. -/
theorem labelWord_apply (hr : RFacts) (lab : IVec S5 32) (e : Fin 32768000) :
    shapeCast S8xM lab hr.c5m (Shape.reshapeEquiv hr.cmf (ix1 e)) = flatOf hr lab e := by
  unfold flatOf
  rw [shapeCast_def, shapeCast_def, Shape.reshapeEquiv_reshapeEquiv]

/-- The segment word of flat position `e`: 65 times its pair number `e / 4096000`, plus its label. -/
theorem segIds_apply (hr : RFacts) (lab : IVec S5 32) (e : Fin 32768000) :
    segIds hr lab (ix2 e 0) = BitVec.ofNat 32 (e.val / 4096000) * 65#32 + flatOf hr lab e := by
  unfold segIds
  rw [col_apply hr, shapeCast_def, addi_at, pairWord_apply hr, labelWord_apply hr]

/-- At the extended reals the host's accumulating scatter is the exact sum, at the element scatter's dimension numbers. -/
theorem scatter_eq (hr : RFacts) (x : FVec Ideal S520 .f32) (idx : IVec SFlat1 32) (upd : FVec Ideal SFlat .f32) :
    Host.scatterAdd (segDims hr) x idx upd
      = Ideal.hostScatterAdd (Cert.Gcn.vecScatterDims 520 32768000 hr.wf) x idx upd := rfl

/-- The segment sums at element `i`: the operand there plus the updates whose segment word, read signed, is `i`. -/
theorem segSum_apply (hr : RFacts) (x : FVec Ideal S520 .f32) (idx : IVec SFlat1 32) (upd : FVec Ideal SFlat .f32)
    (i : Fin 520) :
    Host.scatterAdd (segDims hr) x idx upd (ix1 i)
      = x (ix1 i) + ∑ e ∈ Finset.univ.filter (fun e : Fin 32768000 => (idx (ix2 e (0 : Fin 1))).toInt = (i.val : Int)),
          upd (ix1 e) := by
  rw [scatter_eq]
  exact Cert.Gcn.scatterAddVec_apply hr.wf x idx upd i

/-- The reshape [520] → [2, 4, 65] read at `(b, c, k)` is element `65 (4 b + c) + k`. -/
theorem bins_of_flat {α : Type} (hr : RFacts) (y : S520.Idx → α) (b : Fin 2) (c : Fin 4) (k : Fin 65) (i : Fin 520)
    (hi : i.val = 65 * (4 * b.val + c.val) + k.val) :
    shapeCast SBins y hr.c520 (ix3 b c k) = y (ix1 i) := by
  refine shapeCast_apply _ hr.c520 (ix3 b c k) (ix1 i) ?_
  rw [Shape.rowMajor_val_one, Shape.rowMajor_val_three]
  show i.val = (b.val * 4 + c.val) * 65 + k.val
  omega

/-- The zero operand of the segment sums is zero at every element. -/
theorem zeros_apply (hr : RFacts) (i : S520.Idx) :
    broadcastInDim S520 ![] hr.b520 (constant (F := Ideal) S0 .f32 0x00000000#32) i = 0 := Ideal.ofBits_zero_f32

/-- Every label read at a flat position is a bin number. -/
theorem flat_range (hr : RFacts) (lab : IVec S5 32) (hrange : ∀ i, 0 ≤ (lab i).toInt ∧ (lab i).toInt < 65)
    (e : Fin 32768000) : 0 ≤ (flatOf hr lab e).toInt ∧ (flatOf hr lab e).toInt < 65 :=
  hrange (Shape.reshapeEquiv hr.c5f (ix1 e))

/-- The segment word of `e` is element `65 (4 b + c) + k` exactly when `e` is in pair `4 b + c` and its label is `k`:
    the word does not wrap, `k < 65` is the remainder and the pair number the quotient. -/
theorem seg_iff (hr : RFacts) (lab : IVec S5 32) (hrange : ∀ i, 0 ≤ (lab i).toInt ∧ (lab i).toInt < 65)
    (b : Fin 2) (c : Fin 4) (k : Fin 65) (i : Fin 520) (hi : i.val = 65 * (4 * b.val + c.val) + k.val)
    (e : Fin 32768000) :
    (segIds hr lab (ix2 e (0 : Fin 1))).toInt = (i.val : Int)
      ↔ e.val / 4096000 = (pairIx b c).val ∧ flatOf hr lab e = BitVec.ofNat 32 k.val := by
  have hw := flat_range hr lab hrange e
  have hp : e.val / 4096000 < 8 := by have := e.isLt; omega
  have hb := b.isLt
  have hc := c.isLt
  have hk := k.isLt
  rw [segIds_apply hr, segWord_toInt _ hp _ hw.1 hw.2, ← word_eq_ofNat_iff _ hw.1 hw.2 k.val hk, hi]
  show 65 * ((e.val / 4096000 : Nat) : Int) + (flatOf hr lab e).toInt = ((65 * (4 * b.val + c.val) + k.val : Nat) : Int)
    ↔ e.val / 4096000 = 4 * b.val + c.val ∧ (flatOf hr lab e).toInt = (k.val : Int)
  omega

/-! ## The segment sums at a bin -/

/-- The segment sums at bin `(b, c, k)`. -/
theorem rBins_apply (hr : RFacts) (lab : IVec S5 32) (hrange : ∀ i, 0 ≤ (lab i).toInt ∧ (lab i).toInt < 65)
    (upd : FVec Ideal SFlat .f32) (b : Fin 2) (c : Fin 4) (k : Fin 65) :
    rBins (F := Ideal) hr lab upd (ix3 b c k) = ∑ e ∈ binSet hr lab (pairIx b c) k, upd (ix1 e) := by
  have hb := b.isLt
  have hc := c.isLt
  have hk := k.isLt
  have hlt : 65 * (4 * b.val + c.val) + k.val < 520 := by omega
  unfold rBins
  -- the reshape reads element 65 (4 b + c) + k of the segment sums; there the operand is zero
  rw [bins_of_flat hr _ b c k ⟨65 * (4 * b.val + c.val) + k.val, hlt⟩ rfl, segSum_apply hr, zeros_apply hr, zero_add]
  -- the updates landing on that element are those of the bin's index set
  unfold binSet
  exact Finset.sum_congr
    (Finset.filter_congr fun e _ => seg_iff hr lab hrange b c k ⟨65 * (4 * b.val + c.val) + k.val, hlt⟩ rfl e)
    (fun _ _ => rfl)

end Cert.Hist

end
-- ==== Proof.Bridge.lean ====
/-
  The two programs' bins are the same arrays when every label is a bin number.

  Bin `k` of pair `(b, c)` is, on the kernel's side, lane `k` of pair `4 b + c`'s block: the sum over the pair's tiles,
  rows and lanes of the values labelled `k`; on the reference's side, segment `65 (4 b + c) + k`: the sum of the values
  whose segment word is that number. With every label in `[0, 65)` both are the sum over the same set of flat positions:
  those of the pair whose label is `k`. For the counts the summand is the constant one.
-/
import proofs.«419708_j2456721293567_1_alg».proof.Proof.Bins
import proofs.«419708_j2456721293567_1_alg».proof.Proof.KerBins
import proofs.«419708_j2456721293567_1_alg».proof.Proof.RefBins
import Idealize.ShloMosaic.PureOps.Ideal
import Idealize.ShloMosaic.Lib.ValueIdx
import Idealize.ShloMosaic.Lib.Pipeline.Value

noncomputable section

namespace Cert.Hist

open Idealize.ShloMosaic Idealize.ShloMosaic.ValueIdx

/-- The float pattern of `1.0`: sign bit clear, exponent field 127 (the bias), fraction 0, so it denotes
    `2^23 · 2^(127 − 127 − 23) = 1`. -/
theorem ofBits_one_f32 : Ideal.ofBits .f32 0x3F800000#32 = 1 := by
  show Ideal.ieee 8 23 (0x3F800000#32 : BitVec 32) = 1
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  unfold Ideal.ieee
  simp only [hneg, hex, hfr]
  norm_num

/-- The all-ones updates are one everywhere. -/
theorem onesFlat_apply (hr : RFacts) (e : Fin 32768000) : onesFlat (F := Ideal) hr (ix1 e) = 1 := by
  unfold onesFlat shapeCast broadcastInDim
  exact ofBits_one_f32

/-- The sums: the kernel's bins are the reference's. -/
theorem sum_bins_eq (hk : KGlueFacts) (hr : RFacts) (x : FVec Ideal S5 .f32) (lab : IVec S5 32)
    (hrange : ∀ i, 0 ≤ (lab i).toInt ∧ (lab i).toInt < 65) :
    kBins hk (kSumArr (shapeCast S3 x hk.c5) (shapeCast S3 lab hk.c5))
      = rBins (F := Ideal) hr lab (shapeCast SFlat x hr.c5f) := by
  funext j
  obtain ⟨b, c, k, rfl⟩ : ∃ (b : Fin 2) (c : Fin 4) (k : Fin 65), j = ix3 b c k := ⟨j 0, j 1, j 2, eq_ix3 j⟩
  rw [kBins_apply, rBins_apply hr lab hrange]
  show kSum (shapeCast S3 x hk.c5) (shapeCast S3 lab hk.c5) (pairIx b c) (laneIx k) = _
  rw [kSum_flat hk hr]
  rfl

/-- The counts: the kernel's bins are the reference's. -/
theorem cnt_bins_eq (hk : KGlueFacts) (hr : RFacts) (lab : IVec S5 32)
    (hrange : ∀ i, 0 ≤ (lab i).toInt ∧ (lab i).toInt < 65) :
    kBins hk (kCntArr (shapeCast S3 lab hk.c5)) = rBins (F := Ideal) hr lab (onesFlat hr) := by
  funext j
  obtain ⟨b, c, k, rfl⟩ : ∃ (b : Fin 2) (c : Fin 4) (k : Fin 65), j = ix3 b c k := ⟨j 0, j 1, j 2, eq_ix3 j⟩
  rw [kBins_apply, rBins_apply hr lab hrange]
  show kCnt (shapeCast S3 lab hk.c5) (pairIx b c) (laneIx k) = _
  rw [kCnt_flat hk hr]
  exact Finset.sum_congr rfl fun e _ => (onesFlat_apply hr e).symm

end Cert.Hist

end
-- ==== Proof.PreDecode.lean ====
/-
  What the precondition says of the labels: every label is a bin number, `0 ≤ label < 65` as a signed integer.
-/
import proofs.«419708_j2456721293567_1_alg».proof.Pre_finite_inputs
import proofs.«419708_j2456721293567_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Hist

open Idealize.ShloMosaic Idealize.ShloMosaic.ValueIdx

/-- Under the precondition every label lies in `[0, 65)`. -/
theorem labels_in_range (x : FVec Ideal Cert.Pre_finite_inputs.S2x4x160x160x160 .f32)
    (y : IVec Cert.Pre_finite_inputs.S2x160x160x160 32) (lab : IVec Cert.Pre_finite_inputs.S2x4x160x160x160 32)
    (h : Cert.Pre_finite_inputs.fn (F := Ideal) x y lab = fun _ => 1#1) :
    ∀ i, 0 ≤ (lab i).toInt ∧ (lab i).toInt < 65 := by
  intro i
  -- a rank-0 shape has exactly one index
  haveI : Subsingleton Cert.Pre_finite_inputs.S_.Idx := ⟨fun _ _ => funext fun d => d.elim0⟩
  -- the predicate at its one index: a conjunction of three all-reductions
  have h0 := congrFun h ValueIdx.ix0
  dsimp only [Cert.Pre_finite_inputs.fn] at h0
  obtain ⟨h1, h10⟩ := IntOp.andi_eq_one.1 h0
  obtain ⟨_, h6⟩ := IntOp.andi_eq_one.1 h1
  -- each all-reduction by `and` that is 1 met a 1 at every index
  have e6 := Host.reduce_andi_all _ _ _ _ _ h6 i
  have e10 := Host.reduce_andi_all _ _ _ _ _ h10 i
  -- the signed compares against the broadcast constants 0 and 65
  have a : (0#32).toInt ≤ (lab i).toInt := IntOp.cmpi_sge.1 e6
  have b : (lab i).toInt < (65#32).toInt := IntOp.cmpi_slt.1 e10
  have z0 : (0#32).toInt = 0 := by decide
  have z65 : (65#32).toInt = 65 := by decide
  rw [z0] at a
  rw [z65] at b
  exact ⟨a, b⟩

end Cert.Hist

end
-- ==== Proof.lean ====
/-
  The certificate of the blob-dice histogram kernel against its segment-sum reference.

  The kernel computes, for each of the 8 (batch, class) pairs and each blob number `k < 65`, the sum of the predictions
  at the voxels labelled `k` and the number of such voxels, by comparing the labels of each tile with `k` and summing
  the selected values; the two [8, 1, 128] histograms are kept across the 16 tiles of a pair. The reference computes the
  same two arrays by a scatter-add into 520 segments keyed by 65 · pair + label. Both then apply one chain of host
  operations (the per-blob dice, the mask of valid blobs, the mean) to the pair of arrays.

  Under the precondition — every prediction finite and every label a blob number, `0 ≤ label < 65` — the two pairs of
  arrays are equal over the extended reals: each bin is a sum of the same terms over the same set of voxels, and sums of
  extended reals do not depend on their order. Finiteness of the predictions is not used. Outside the label range the
  reference's key lands in another pair's segments while the kernel drops the voxel, so the range is needed.

  The three frames: the kernel's two are its generated frame runs; the reference's is its run with the result dropped.
  The idealization rewrote nothing, so `preserves` is trivial.
-/
import proofs.«419708_j2456721293567_1_alg».proof.Defs
import proofs.«419708_j2456721293567_1_alg».proof.Proof.Gen.Kernel
import proofs.«419708_j2456721293567_1_alg».proof.Proof.Gen.Kernel.Skeleton
import proofs.«419708_j2456721293567_1_alg».proof.Proof.Gen.Kernel.Launch
import proofs.«419708_j2456721293567_1_alg».proof.Proof.Gen.Kernel.Points
import proofs.«419708_j2456721293567_1_alg».proof.Proof.Gen.Kernel.Frame
import proofs.«419708_j2456721293567_1_alg».proof.Proof.Gen.KernelIdeal
import proofs.«419708_j2456721293567_1_alg».proof.Proof.Gen.KernelIdeal.Skeleton
import proofs.«419708_j2456721293567_1_alg».proof.Proof.Gen.KernelIdeal.Launch
import proofs.«419708_j2456721293567_1_alg».proof.Proof.Gen.KernelIdeal.Points
import proofs.«419708_j2456721293567_1_alg».proof.Proof.Gen.KernelIdeal.Frame
import proofs.«419708_j2456721293567_1_alg».proof.Proof.Gen.ReferenceIdeal
import proofs.«419708_j2456721293567_1_alg».proof.Proof.Gen.Pre_finite_inputs
import proofs.«419708_j2456721293567_1_alg».proof.Proof.RefRun
import proofs.«419708_j2456721293567_1_alg».proof.Proof.RefValue
import proofs.«419708_j2456721293567_1_alg».proof.Proof.KernelRun
import proofs.«419708_j2456721293567_1_alg».proof.Proof.Bridge
import proofs.«419708_j2456721293567_1_alg».proof.Proof.PreDecode
import Idealize.ShloMosaic.Adequacy
import Idealize.ShloMosaic.Init

noncomputable section

namespace Cert.Proof

open Idealize.ShloMosaic Idealize.SL.Sem Cert.Hist

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the tail of the same two arrays: the kernel's run names its result; the reference's result
    term is the tail of its segment sums, and under the label range those are the kernel's bins. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  have hr := labels_in_range _ _ _ (hpre c)
  rw [Cert.ReferenceIdeal.RefValue.res_eq, (hagree c).1, (hagree c).2.2]
  show _ = Cert.KernelIdeal.Run.result m c
  unfold Cert.KernelIdeal.Run.result
  rw [sum_bins_eq Cert.KernelIdeal.Tail.kf Cert.ReferenceIdeal.RefValue.rf _ _ hr,
    cnt_bins_eq Cert.KernelIdeal.Tail.kf Cert.ReferenceIdeal.RefValue.rf _ hr]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
